-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x512 : Shape := ⟨2, ![2048, 512]⟩
abbrev S512 : Shape := ⟨1, ![512]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S4x4096x2048 .f32) (main_arg1 : FVec F S2048x512 .f32) (main_arg2 : FVec F S512 .f32) (main_arg3 : FVec F S2048x512 .f32) (main_arg4 : FVec F S512 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_v13 main_v16
-- ==== Kernel.lean ====
abbrev S4x4096x2048 : Shape := ⟨3, ![4, 4096, 2048]⟩
abbrev S2048x512 : Shape := ⟨2, ![2048, 512]⟩
abbrev S512 : Shape := ⟨1, ![512]⟩
abbrev S_ : Shape := ⟨0, ![]⟩
abbrev S1x512 : Shape := ⟨2, ![1, 512]⟩
abbrev S16384x2048 : Shape := ⟨2, ![16384, 2048]⟩
abbrev S16384x512 : Shape := ⟨2, ![16384, 512]⟩
abbrev S512x2048 : Shape := ⟨2, ![512, 2048]⟩
abbrev S512x512 : Shape := ⟨2, ![512, 512]⟩
abbrev S4x4096x512 : Shape := ⟨3, ![4, 4096, 512]⟩
abbrev S1x512x512 : Shape := ⟨3, ![1, 512, 512]⟩
abbrev S1x2048x512 : Shape := ⟨3, ![1, 2048, 512]⟩
abbrev S512x1 : Shape := ⟨2, ![512, 1]⟩

abbrev nBuf : Space → Nat
  | .hbm => 21
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S2048x512, .f32⟩
  | .hbm, ⟨2, _⟩ => ⟨S512, .f32⟩
  | .hbm, ⟨3, _⟩ => ⟨S2048x512, .f32⟩
  | .hbm, ⟨4, _⟩ => ⟨S512, .f32⟩
  | .hbm, ⟨5, _⟩ => ⟨S_, .f32⟩
  | .hbm, ⟨6, _⟩ => ⟨S2048x512, .f32⟩
  | .hbm, ⟨7, _⟩ => ⟨S2048x512, .f32⟩
  | .hbm, ⟨8, _⟩ => ⟨S2048x512, .bf16⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S2048x512, .bf16⟩
  | .hbm, ⟨14, _⟩ => ⟨S1x512, .f32⟩
  | .hbm, ⟨15, _⟩ => ⟨S16384x2048, .f32⟩
  | .hbm, ⟨16, _⟩ => ⟨S16384x512, .bf16⟩
  | .hbm, ⟨17, _⟩ => ⟨S16384x512, .bf16⟩
  | .hbm, ⟨18, _⟩ => ⟨S4x4096x512, .bf16⟩
  | .hbm, ⟨19, _⟩ => ⟨S4x4096x512, .bf16⟩
  | .hbm, ⟨20, _⟩ => ⟨S4x4096x512, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S1x512, .f32⟩
  | .local _ .vmem, ⟨4, _⟩ => ⟨S2048x512, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x512x512, .f32⟩
  | .local _ .vmem, ⟨15, _⟩ => ⟨S1x512x512, .f32⟩
  | .local _ .vmem, ⟨16, _⟩ => ⟨S512x1, .f32⟩
  | .local _ .vmem, ⟨17, _⟩ => ⟨S512x1, .f32⟩
  | .local _ .vmem, ⟨18, _⟩ => ⟨S512x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 8, 2], ![false, false, false]⟩

def k1_cond2 (i : grid1.Coords) : BitVec 1 :=
  let arg2 : BitVec 32 := BitVec.ofNat 32 (i 2).val
  let c1_i32 : BitVec 32 := 1#32
  let v38 : BitVec 1 := Scalar.cmpi .eq arg2 c1_i32
  let v39 : BitVec 32 := Scalar.extui v38
  let c0_i32_23 : BitVec 32 := 0#32
  let v40 : BitVec 1 := Scalar.cmpi .ne v39 c0_i32_23
  v40

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S_S2048x512 : S_.BroadcastsInDim S2048x512 (![] : Fin 0 → Fin S2048x512.rank)
  bitsLt_bf16_f32 : FTy.bits .bf16 < FTy.bits .f32
  bcast_S_S512 : S_.BroadcastsInDim S512 (![] : Fin 0 → Fin S512.rank)
  shapeCasts_S512_S1x512 : S512.ShapeCasts S1x512
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S16384x512_S4x4096x512 : S16384x512.ShapeCasts S4x4096x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  broadcasts_S512x1_S512x512 : S512x1.Broadcasts S512x512
  shapeCasts_S512x512_S1x512x512 : S512x512.ShapeCasts S1x512x512
  dot_S512x2048_S2048x512_S512x512_1_0_0_1_n_n_wf : DotDims.WF S512x2048 S2048x512 S512x512 [1] [0] [0] [1] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .bf16 = 32 ∨ (Rect.block (s := S16384x512) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .bf16 = 32 ∨ (Rect.block (s := S16384x512) S512x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x4096x512.size a
  hwx1_0 : ∀ i : grid1.Coords, EltTy.bits .bf16 = 32 ∨ (Rect.block (s := S4x4096x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S4x4096x512.size a
  hwx1_1 : ∀ i : grid1.Coords, EltTy.bits .bf16 = 32 ∨ (Rect.block (s := S4x4096x512) S1x2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x4096x512.size a
  hwx1_2 : ∀ i : grid1.Coords, EltTy.bits .f32 = 32 ∨ (Rect.block (s := S4x4096x512) S1x512x512.size (cc1_transform_2 i) (hinb1_2 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v8) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S2048x512 : Shape := ⟨2, ![2048, 512]⟩
abbrev S512 : Shape := ⟨1, ![512]⟩
abbrev S4x4096x512 : Shape := ⟨3, ![4, 4096, 512]⟩
abbrev S1x1x512 : Shape := ⟨3, ![1, 1, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x512, .f32⟩
  | .hbm, ⟨2, _⟩ => ⟨S512, .f32⟩
  | .hbm, ⟨3, _⟩ => ⟨S2048x512, .f32⟩
  | .hbm, ⟨4, _⟩ => ⟨S512, .f32⟩
  | .hbm, ⟨5, _⟩ => ⟨S4x4096x512, .f32⟩
  | .hbm, ⟨6, _⟩ => ⟨S1x1x512, .f32⟩
  | .hbm, ⟨7, _⟩ => ⟨S4x4096x512, .f32⟩
  | .hbm, ⟨8, _⟩ => ⟨S4x4096x512, .f32⟩
  | .hbm, ⟨9, _⟩ => ⟨S4x4096x512, .f32⟩
  | .hbm, ⟨10, _⟩ => ⟨S1x1x512, .f32⟩
  | .hbm, ⟨11, _⟩ => ⟨S4x4096x512, .f32⟩
  | .hbm, ⟨12, _⟩ => ⟨S4x4096x512, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x512, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x2048_S2048x512_S4x4096x512_2_0_01_1_n_n_wf : DotDims.WF S4x4096x2048 S2048x512 S4x4096x512 [2] [0] [0, 1] [1] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x2048_S2048x512_S4x4096x512_2_0_01_1_n_n : DotDims S4x4096x2048 S2048x512 S4x4096x512 where
  lhsContracting := [2]
  rhsContracting := [0]
  lhsNonContracting := [0, 1]
  rhsNonContracting := [1]
  lhsBatch := []
  rhsBatch := []
  wf := dot_S4x4096x2048_S2048x512_S4x4096x512_2_0_01_1_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.Ideal.Project.lean ====
/-
  The projection launch: 32 grid points, each taking a 512-row band of the flattened activations and the two
  weight matrices with their bias rows, and writing the band's 512×512 query block and value block.

  Stated at a parameter `V`, the buffer contents the launch is entered from: a point's input blocks are
  restrictions of `V`'s arrays; the two output blocks after the body are the two stores' payloads read back;
  the body keeps nothing between points, so the launch invariant is the untouched rest.
-/
import proofs.«402456_j86346022519567_3_alg».proof.Proof.Gen.KernelIdeal.Launch
import proofs.«402456_j86346022519567_3_alg».proof.Proof.Gen.KernelIdeal.Skeleton
import proofs.«402456_j86346022519567_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the launch finds it, to the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block
    index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the block
    index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the block
    index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or the block
    index stood still. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetched it or the block
    index stood still. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 512×512 output block: both stores write it in one piece. -/
abbrev rOut : Rect S512x512 := Rect.unit (s := S512x512) ![0, 0] S512x512.size inb_S512x512_S512x512_0_0
abbrev rX : Rect S512x2048 := Rect.unit (s := S512x2048) ![0, 0] S512x2048.size inb_S512x2048_S512x2048_0_0
abbrev rW : Rect S2048x512 := Rect.unit (s := S2048x512) ![0, 0] S2048x512.size inb_S2048x512_S2048x512_0_0
abbrev rB : Rect S1x512 := Rect.unit (s := S1x512) ![0, 0] S1x512.size inb_S1x512_S1x512_0_0

/-- The query block after the body: the band times the scaled query weights plus the scaled bias row. -/
def out0_5 (x0 : Vec F S512x2048 .f32) (x1 : Vec F S2048x512 .bf16) (x2 : Vec F S1x512 .f32) : Vec F S512x512 .bf16 :=
  View.canon [⟨rOut, k0_pay2 (View.ld x0 rX) (View.ld x1 rW) (View.ld x2 rB)⟩]
/-- The value block after the body: the band times the value weights plus the bias row. -/
def out0_6 (x0 : Vec F S512x2048 .f32) (x3 : Vec F S2048x512 .bf16) (x4 : Vec F S1x512 .f32) : Vec F S512x512 .bf16 :=
  View.canon [⟨rOut, k0_pay3 (View.ld x0 rX) (View.ld x3 rW) (View.ld x4 rB)⟩]

/-- One store of the whole block covers it. -/
theorem cover0_out (p0 : Vec F S512x512 .bf16) (y : S512x512.Idx) :
    ∃ pc ∈ ([⟨rOut, p0⟩] : List (View.Piece (Elt F) S512x512 .bf16)), y ∈ pc.1.set :=
  View.cover_of_tiled [⟨rOut, p0⟩] S512x512.size (by rfl) y

set_option maxHeartbeats 4000000 in
/-- The body on whole staging buffers: the five inputs are read and left as they were, the two outputs end at
    the blocks above whatever they held. -/
theorem sound_kernel0 (c : Dev nD) (E : Set ℕ) (i : grid0.Coords)
    (arg1 : Memref sig .tc .vmem S512x2048 .f32) (harg1 : arg1.IsWhole) (arg2 : Memref sig .tc .vmem S2048x512 .bf16) (harg2 : arg2.IsWhole) (arg3 : Memref sig .tc .vmem S1x512 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x512 .bf16) (harg7 : arg7.IsWhole)
    (x0 : Vec F S512x2048 .f32) (x1 : Vec F S2048x512 .bf16) (x2 : Vec F S1x512 .f32) (x3 : Vec F S2048x512 .bf16) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__qv_proj_kernel i arg1 harg1 arg2 harg2 arg3 harg3 arg4 harg4 arg5 harg5 arg6 harg6 arg7 harg7) K := by
  simp only [cc0__qv_proj_kernel_eq_skeleton]; unfold cc0__qv_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-- The launch's proof data on core `c`: arrays as found; after the body each input at its block and each output
    at the block above; nothing carried, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.AttendShared.lean ====
/-
  The attention launch: 64 grid points (batch, query band, key/value half), the last axis fastest. What its two
  cases share: a point's blocks as restrictions of the arrays the launch finds; the body's two branch conditions
  decided over the grid (the first holds exactly at the even points, where the running maximum, the running
  denominator and the running numerator are reset; the second exactly at the odd points, where the quotient is
  stored); the output window idle and not written back at the even points; and the launch's untouched rest with
  the three carried scratch buffers split off.
-/
import proofs.«402456_j86346022519567_3_alg».proof.Proof.Gen.KernelIdeal.Launch
import proofs.«402456_j86346022519567_3_alg».proof.Proof.Gen.KernelIdeal.Skeleton
import proofs.«402456_j86346022519567_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the launch finds it, to the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block
    index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the block
    index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The first branch condition (reset the carried state), from the grid coordinates. -/
abbrev cond1_0 (i : grid1.Coords) : Prop := (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- The second branch condition (store the quotient), from the grid coordinates. -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
/-- At the even points the output window is idle: the body stores nothing into it, -/
theorem idleAt1_2_A : ∀ t : Fin cfg1.N, cond1_0 (grid1.coords t) → ¬cond1_1 (grid1.coords t) → cfg1.idle 2 (grid1.coords t) = true := by decide +kernel
/-- and the launch does not write it back. -/
theorem noFlush1_2_A : ∀ t : Fin cfg1.N, cond1_0 (grid1.coords t) → ¬cond1_1 (grid1.coords t) → (cfg1.win 2).flush t = false := by decide +kernel
/-- At the odd points it is live. -/
theorem liveAt1_2_B : ∀ t : Fin cfg1.N, ¬cond1_0 (grid1.coords t) → cond1_1 (grid1.coords t) → cfg1.idle 2 (grid1.coords t) = false := by decide +kernel

/-- One staging buffer of the output window, through which its contents are stated. -/
abbrev VO1_2 : View sig .tc .vmem S1x512x512 .f32 := (Memref.whole cc1_stg2_0 : Memref sig .tc .vmem S1x512x512 .f32).view
abbrev ms1_0 (t : Fin cfg1.N) : Memref sig .tc .vmem S1x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .f32 := win1_2.stage (cfg1.slots t 2)
abbrev hs1_2 (t : Fin cfg1.N) : (ms1_2 t).IsWhole := hstage1_2 ((cfg1.slots t 2).cast nbuf1_2)
/-- The three carried buffers: the running row maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2
abbrev VS1_0 : View sig .tc .vmem S512x1 .f32 := scM1_0.view
abbrev VS1_1 : View sig .tc .vmem S512x1 .f32 := scM1_1.view
abbrev VS1_2 : View sig .tc .vmem S512x512 .f32 := scM1_2.view

/-- The scoped buffers this launch never touches (the projection launch's staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The launch's untouched rest is those buffers, the three carried buffers at some contents, and the generator register. -/
theorem phiA1_split (c : Dev nD) :
    (Pipeline.ΦA spec1 c : sProp 𝕄) ⊢ iprop(rest1 (F := F) c ∗ (∃ d, owns (c : Thread nD τ) scM1_0 fullShare d) ∗ (∃ d, owns (c : Thread nD τ) scM1_1 fullShare d)
        ∗ (∃ d, owns (c : Thread nD τ) scM1_2 fullShare d) ∗ (∃ r, prngReg c r)) := by
  unfold Pipeline.ΦA; rw [scopedRest1_eq]; unfold rest1; simp only [scM1_0, scM1_1, scM1_2, owns_whole]
  iintro ⟨⟨H0, H1, H2, H3, H4, H5, H6, H7, H8, H9, HS0, HS1, HS2⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS0]; · iexact HS0
  isplitl [HS1]; · iexact HS1
  isplitl [HS2]; · iexact HS2
  iexact Hg

theorem phiA1_join (c : Dev nD) :
    iprop(rest1 (F := F) c ∗ (∃ d, owns (c : Thread nD τ) scM1_0 fullShare d) ∗ (∃ d, owns (c : Thread nD τ) scM1_1 fullShare d)
        ∗ (∃ d, owns (c : Thread nD τ) scM1_2 fullShare d) ∗ (∃ r, prngReg c r)) ⊢ (Pipeline.ΦA spec1 c : sProp 𝕄) := by
  unfold Pipeline.ΦA; rw [scopedRest1_eq]; unfold rest1; simp only [scM1_0, scM1_1, scM1_2, owns_whole]
  iintro ⟨⟨H0, H1, H2, H3, H4, H5, H6, H7, H8, H9⟩, HS0, HS1, HS2, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iexact HS2

end Cert.KernelIdeal.Hand

end
-- ==== Proof.Ideal.AttendFirst.lean ====
/-
  The attention body at an even point (first key/value half of a query band): the carried maximum, denominator and
  numerator are reset and then updated from the point's query block and key/value block; nothing is stored into
  the output window. The pieces each carried buffer ends with are found by running the body.
-/
import proofs.«402456_j86346022519567_3_alg».proof.Proof.Ideal.AttendShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- On whole buffers — the two inputs at their contents, the output's at contents handed back untouched, the three
    carried buffers at anything — the body runs to the continuation holding the inputs as they were and each carried
    buffer with its pieces written. -/
noncomputable def kernelRun1_A (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) :
    Σ' (L2 : List (View.Piece (Elt F) S1x512x512 .f32)) (LS0 : List (View.Piece (Elt F) S512x1 .f32)) (LS1 : List (View.Piece (Elt F) S512x1 .f32)), { LS2 : List (View.Piece (Elt F) S512x512 .f32) //
      ∀ (xi2 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8) K } := by
  refine ⟨[], ?_, ?_, ?_, fun xi2 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.Hand

end
-- ==== Proof.Ideal.AttendLast.lean ====
/-
  The attention body at an odd point (second key/value half of a query band): the carried maximum, denominator and
  numerator, at what the even point before left, are updated from the point's blocks, and the numerator over the
  guarded denominator is stored into the output window. The pieces each buffer ends with are found by running the body.
-/
import proofs.«402456_j86346022519567_3_alg».proof.Proof.Ideal.AttendShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- On whole buffers — the two inputs at their contents, the output's at anything, the three carried buffers at the
    contents the point before left — the body runs to the continuation holding the inputs as they were and the
    output and each carried buffer with its pieces written. -/
noncomputable def kernelRun1_B (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) :
    Σ' (L2 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg3.eq_unread hf0; obtain rfl := harg4.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.Ideal.Attend.lean ====
/-
  The attention launch's proof data. After the body at a point: the two input windows at their blocks; the output
  window and the three carried buffers at what the point's case leaves — by recursion on the point, an odd point's
  case run from what the even point before it left in the carried buffers. The launch invariant names the carried
  buffers' contents after every point; before the first it is the untouched rest.
-/
import proofs.«402456_j86346022519567_3_alg».proof.Proof.Ideal.AttendFirst
import proofs.«402456_j86346022519567_3_alg».proof.Proof.Ideal.AttendLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The even case stores nothing into the output window: a placeholder nothing consults (the window is neither
    written back at an even point nor read at the next). -/
def out1_A_2 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) : Vec F S1x512x512 .f32 :=
  VO1_2.read (Elt F) (VO1_2.writes (Elt F) VO1_2.junk (kernelRun1_A c i arg3 harg3 arg4 harg4 arg5 harg5 arg6 harg6 arg7 harg7 arg8 harg8 hc0 hc1 x0 x1).1)

/-- The pieces the even case leaves in carried buffer 0 tile it, so they cover it. -/
theorem scover1_A_0 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) (y : S512x1.Idx) :
    ∃ pc ∈ (kernelRun1_A c i arg3 harg3 arg4 harg4 arg5 harg5 arg6 harg6 arg7 harg7 arg8 harg8 hc0 hc1 x0 x1).2.1, y ∈ pc.1.set :=
  View.cover_of_tiledL (kernelRun1_A c i arg3 harg3 arg4 harg4 arg5 harg5 arg6 harg6 arg7 harg7 arg8 harg8 hc0 hc1 x0 x1).2.1 S512x1.size (by sl_kernel_rfl) y

/-- What the even case leaves in carried buffer 0: its pieces read back. -/
def sout1_A_0 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) : Vec F S512x1 .f32 :=
  VS1_0.read (Elt F) (VS1_0.writes (Elt F) VS1_0.junk (kernelRun1_A c i arg3 harg3 arg4 harg4 arg5 harg5 arg6 harg6 arg7 harg7 arg8 harg8 hc0 hc1 x0 x1).2.1)

/-- The pieces the even case leaves in carried buffer 1 tile it, so they cover it. -/
theorem scover1_A_1 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) (y : S512x1.Idx) :
    ∃ pc ∈ (kernelRun1_A c i arg3 harg3 arg4 harg4 arg5 harg5 arg6 harg6 arg7 harg7 arg8 harg8 hc0 hc1 x0 x1).2.2.1, y ∈ pc.1.set :=
  View.cover_of_tiledL (kernelRun1_A c i arg3 harg3 arg4 harg4 arg5 harg5 arg6 harg6 arg7 harg7 arg8 harg8 hc0 hc1 x0 x1).2.2.1 S512x1.size (by sl_kernel_rfl) y

/-- What the even case leaves in carried buffer 1: its pieces read back. -/
def sout1_A_1 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) : Vec F S512x1 .f32 :=
  VS1_1.read (Elt F) (VS1_1.writes (Elt F) VS1_1.junk (kernelRun1_A c i arg3 harg3 arg4 harg4 arg5 harg5 arg6 harg6 arg7 harg7 arg8 harg8 hc0 hc1 x0 x1).2.2.1)

/-- The pieces the even case leaves in carried buffer 2 tile it, so they cover it. -/
theorem scover1_A_2 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) (y : S512x512.Idx) :
    ∃ pc ∈ (kernelRun1_A c i arg3 harg3 arg4 harg4 arg5 harg5 arg6 harg6 arg7 harg7 arg8 harg8 hc0 hc1 x0 x1).2.2.2.1, y ∈ pc.1.set :=
  View.cover_of_tiledL (kernelRun1_A c i arg3 harg3 arg4 harg4 arg5 harg5 arg6 harg6 arg7 harg7 arg8 harg8 hc0 hc1 x0 x1).2.2.2.1 S512x512.size (by sl_kernel_rfl) y

/-- What the even case leaves in carried buffer 2: its pieces read back. -/
def sout1_A_2 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) : Vec F S512x512 .f32 :=
  VS1_2.read (Elt F) (VS1_2.writes (Elt F) VS1_2.junk (kernelRun1_A c i arg3 harg3 arg4 harg4 arg5 harg5 arg6 harg6 arg7 harg7 arg8 harg8 hc0 hc1 x0 x1).2.2.2.1)

/-- The odd case's one store covers the output block. -/
theorem cover1_B_2 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) (y : S1x512x512.Idx) :
    ∃ pc ∈ (kernelRun1_B c i arg3 harg3 arg4 harg4 arg5 harg5 arg6 harg6 arg7 harg7 arg8 harg8 hc0 hc1 x0 x1 xs0 xs1 xs2).1, y ∈ pc.1.set :=
  View.cover_of_tiledL (kernelRun1_B c i arg3 harg3 arg4 harg4 arg5 harg5 arg6 harg6 arg7 harg7 arg8 harg8 hc0 hc1 x0 x1 xs0 xs1 xs2).1 S1x512x512.size (by sl_kernel_rfl) y

/-- What the odd case leaves in the output window's staging buffer: its pieces read back. -/
def out1_B_2 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) : Vec F S1x512x512 .f32 :=
  VO1_2.read (Elt F) (VO1_2.writes (Elt F) VO1_2.junk (kernelRun1_B c i arg3 harg3 arg4 harg4 arg5 harg5 arg6 harg6 arg7 harg7 arg8 harg8 hc0 hc1 x0 x1 xs0 xs1 xs2).1)

/-- The pieces the odd case leaves in carried buffer 0 tile it, so they cover it. -/
theorem scover1_B_0 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) (y : S512x1.Idx) :
    ∃ pc ∈ (kernelRun1_B c i arg3 harg3 arg4 harg4 arg5 harg5 arg6 harg6 arg7 harg7 arg8 harg8 hc0 hc1 x0 x1 xs0 xs1 xs2).2.1, y ∈ pc.1.set :=
  View.cover_of_tiledL (kernelRun1_B c i arg3 harg3 arg4 harg4 arg5 harg5 arg6 harg6 arg7 harg7 arg8 harg8 hc0 hc1 x0 x1 xs0 xs1 xs2).2.1 S512x1.size (by sl_kernel_rfl) y

/-- What the odd case leaves in carried buffer 0: its pieces read back. -/
def sout1_B_0 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) : Vec F S512x1 .f32 :=
  VS1_0.read (Elt F) (VS1_0.writes (Elt F) VS1_0.junk (kernelRun1_B c i arg3 harg3 arg4 harg4 arg5 harg5 arg6 harg6 arg7 harg7 arg8 harg8 hc0 hc1 x0 x1 xs0 xs1 xs2).2.1)

/-- The pieces the odd case leaves in carried buffer 1 tile it, so they cover it. -/
theorem scover1_B_1 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) (y : S512x1.Idx) :
    ∃ pc ∈ (kernelRun1_B c i arg3 harg3 arg4 harg4 arg5 harg5 arg6 harg6 arg7 harg7 arg8 harg8 hc0 hc1 x0 x1 xs0 xs1 xs2).2.2.1, y ∈ pc.1.set :=
  View.cover_of_tiledL (kernelRun1_B c i arg3 harg3 arg4 harg4 arg5 harg5 arg6 harg6 arg7 harg7 arg8 harg8 hc0 hc1 x0 x1 xs0 xs1 xs2).2.2.1 S512x1.size (by sl_kernel_rfl) y

/-- What the odd case leaves in carried buffer 1: its pieces read back. -/
def sout1_B_1 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) : Vec F S512x1 .f32 :=
  VS1_1.read (Elt F) (VS1_1.writes (Elt F) VS1_1.junk (kernelRun1_B c i arg3 harg3 arg4 harg4 arg5 harg5 arg6 harg6 arg7 harg7 arg8 harg8 hc0 hc1 x0 x1 xs0 xs1 xs2).2.2.1)

/-- The pieces the odd case leaves in carried buffer 2 tile it, so they cover it. -/
theorem scover1_B_2 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) (y : S512x512.Idx) :
    ∃ pc ∈ (kernelRun1_B c i arg3 harg3 arg4 harg4 arg5 harg5 arg6 harg6 arg7 harg7 arg8 harg8 hc0 hc1 x0 x1 xs0 xs1 xs2).2.2.2.1, y ∈ pc.1.set :=
  View.cover_of_tiledL (kernelRun1_B c i arg3 harg3 arg4 harg4 arg5 harg5 arg6 harg6 arg7 harg7 arg8 harg8 hc0 hc1 x0 x1 xs0 xs1 xs2).2.2.2.1 S512x512.size (by sl_kernel_rfl) y

/-- What the odd case leaves in carried buffer 2: its pieces read back. -/
def sout1_B_2 (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) : Vec F S512x512 .f32 :=
  VS1_2.read (Elt F) (VS1_2.writes (Elt F) VS1_2.junk (kernelRun1_B c i arg3 harg3 arg4 harg4 arg5 harg5 arg6 harg6 arg7 harg7 arg8 harg8 hc0 hc1 x0 x1 xs0 xs1 xs2).2.2.2.1)

/-- What the output's staging buffer and the three carried buffers hold after the body at position `n`: the even
    case from the point's blocks alone, the odd case also from what position `n - 1` left in the carried buffers. -/
def outsAt1 (c : Dev nD) : (n : ℕ) → n < cfg1.N → Vec F S1x512x512 .f32 × Vec F S512x1 .f32 × Vec F S512x1 .f32 × Vec F S512x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 2 = 0 then
      if h1 : (n + 1) % 2 = 1 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 2 = 1 then
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2)
      else
        False.elim (by omega)

theorem outsAt1_A (c : Dev nD) (t : Fin cfg1.N) (h0 : t.val % 2 = 0) (h1 : ¬t.val % 2 = 1) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t), sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 2 = 0) (h1 : t.val % 2 = 1) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The launch invariant before position `n`: before the first point the untouched rest; afterwards the untouched
    buffers, each carried buffer at what the point before left in it, and the generator register. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2.1)
      ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1_0 fullShare ((outsAt1 V c n hn).2.1)
      ∗ owns (c : Thread nD τ) scM1_1 fullShare ((outsAt1 V c n hn).2.2.1) ∗ owns (c : Thread nD τ) scM1_2 fullShare ((outsAt1 V c n hn).2.2.2) ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1_0 fullShare ((outsAt1 V c (n - 1) (by omega)).2.1)
      ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-- The launch's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the parity of the point says which case it is in; the invariant hands the body the
    carried buffers (at anything before the first point, else at what the point before left) and takes them back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have h1 : ¬t.val % 2 = 1 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0 sout1_A_1 sout1_A_2; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (phiA1_split (F := F) c) $$ HΦ
      icases HΦ' with ⟨HR, HS0, HS1, HS2, Hg⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨HR, HS0, HS1, HS2, Hg⟩, Ho, ⟨%d0, H0⟩, ⟨%d1, H1⟩, ⟨%d2, H2⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _)
        iexact Hg
      isplitl [Ho]; · iexact Ho
      isplitl [H0]; · iexact H0
      isplitl [H1]; · iexact H1
      iexists _; iexact H2
  · have h1 : t.val % 2 = 1 := by omega
    rw [show (dat1 V c).leavesExact 2 t = owns (c : Thread nD τ) (ms1_2 t) fullShare ((dat1 V c).after 2 t) from by
      unfold Dat.leavesExact; rw [liveAt1_2_B t (fun h => h0 ((hcond1_0 t).mp h)) ((hcond1_1 t).mpr h1)], after1_2]
    rw [outsAt1_B V c t h0 h1]
    unfold out1_B_2 sout1_B_0 sout1_B_1 sout1_B_2; (try dsimp only)
    have hz : t.val ≠ 0 := by omega
    rw [PhiS1_castSucc V c t, PhiS1_pos V c _ _ hz]
    iintro ⟨⟨HR, HS0, HS1, HS2, Hg⟩, Ho, ⟨%d0, H0⟩, ⟨%d1, H1⟩, ⟨%d2, H2⟩⟩
    iapply ((kernelRun1_B c (grid1.coords t) _ _ _ _ _ _ _ _ _ _ _ _ (fun h => h0 ((hcond1_0 t).mp h)) ((hcond1_1 t).mpr h1) (iblk1 V c 0 t) (iblk1 V c 1 t) _ _ _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_B_0 c _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _ _ _ _ _ _ _)

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the untouched rest back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HR, HS0, HS1, HS2, Hg⟩
  iapply (phiA1_join (F := F) c)
  isplitl [HR]; · iexact HR
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.Ideal.Whole.lean ====
/-
  The whole program: a stretch of host operations (the scaled and narrowed weights, the bias rows, the flattened
  activations), the projection launch, two reshapes, the attention launch. The buffer contents at each boundary are a
  fold from the launch memory: a host stretch applies its operations; a launch leaves each of its windows' arrays at
  what its write-backs leave and every other buffer alone. Every weakly fair execution terminates with every
  unscoped buffer at the last boundary's contents — in particular the five arguments as launched, and the result
  array at what the attention launch's write-backs leave.
-/
import proofs.«402456_j86346022519567_3_alg».proof.Proof.Ideal.Project
import proofs.«402456_j86346022519567_3_alg».proof.Proof.Ideal.Attend

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the projection launch: its arrays at what its write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the two reshapes. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the attention launch. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- Argument 0 ends as launched: neither host stretch writes it and no launch has it as a window's array. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 ends as launched: neither host stretch writes it and no launch has it as a window's array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 ends as launched: neither host stretch writes it and no launch has it as a window's array. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 ends as launched: neither host stretch writes it and no launch has it as a window's array. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 ends as launched: neither host stretch writes it and no launch has it as a window's array. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- No launch has a prefetched table. -/
abbrev admH : (p : Fin 2) → (pcfgs (F := F) p).Adm := fun p => (cfgs p).toPCfg_adm
/-- Each launch's proof data at its entry contents. -/
def pdatsH : (p : Fin 2) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TH (c : Dev nD) : sProp 𝕄 := iprop(StableHlo.held (c : Thread nD τ) (Pipeline.ucRefs τ sig) (W4 m ρ c) ∗ ∃ r, prngReg c r)

set_option backward.isDefEq.respectTransparency.types false in
/-- Launch 0 as a segment: entered from every unscoped buffer at the boundary's contents, left at the next
    boundary's. Its windows' arrays are split out of the unscoped buffers and put back at what the write-backs
    leave; the generator register goes into the launch invariant and comes out; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The untouched rest hands the generator register and the scoped buffers back. -/
theorem phiA1_back (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- Launch 1 as a segment: entered from every unscoped buffer at the boundary's contents, left at the next
    boundary's. Its windows' arrays are split out of the unscoped buffers and put back at what the write-backs
    leave; the generator register goes into the launch invariant and comes out; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (U3 m ρ) c).trans (phiA1_back c)
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) admH (pdatsH m ρ) () defs₀ 𝒱H LH lvH) :=
  [ .host (hsegH hostOps0 hostOps0_sub hostOps0_freshH (W0 m ρ)),
    .region (reg0 m ρ),
    .host (hsegH hostOps1 hostOps1_sub hostOps1_freshH (W2 m ρ)),
    .region (reg1 m ρ) ]
theorem main_runH (c : Dev nD) : main (F := F) c = Pipeline.Seg.run (segsH m ρ) := (main_chain c).trans (by chain_rfl)

set_option backward.isDefEq.respectTransparency.types false in
/-- From any memory with zero counters every weakly fair execution of the program terminates, nothing faulting, with
    the result array at the last boundary's contents and the five arguments as launched. -/
theorem run_whole : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_whole m ρ)

/-- The result array at the end is what the attention launch's write-backs leave in it. -/
theorem W4_result (c : Dev nD) : W4 m ρ c (Proc.devRef .tc main_v12) = (dat1 (U3 m ρ) c).arrAt 2 cfg1.N :=
  W4_arr m ρ c 2

end Cert.KernelIdeal.Hand

end
-- ==== Proof.Ideal.AttendPieces.lean ====
/-
  What the attention body's two cases leave, read off the pieces their runs found: each carried buffer and the output
  block as the body's own arithmetic (the named payloads) of the point's blocks and of what was carried in.
  Even point: the maximum, denominator and numerator are first reset (to -∞, 0, 0), the reset values are what the
  update reads back, and the update's stores are what remains. Odd point: the update reads what was carried in; the
  output block is the quotient payload of the denominator and numerator just stored.
-/
import proofs.«402456_j86346022519567_3_alg».proof.Proof.Ideal.Attend
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

/-- The zero offsets of a rank-2 rectangle, however spelt. -/
private theorem zeros2 : (![0, 0] : Fin 2 → Nat) = fun _ => 0 := funext fun a => by fin_cases a <;> rfl
/-- The zero offsets of a rank-3 rectangle, however spelt. -/
private theorem zeros3 : (![0, 0, 0] : Fin 3 → Nat) = fun _ => 0 := funext fun a => by fin_cases a <;> rfl

set_option maxHeartbeats 4000000 in
theorem sout1_A_0_eq (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) :
    sout1_A_0 c i arg3 harg3 arg4 harg4 arg5 harg5 arg6 harg6 arg7 harg7 arg8 harg8 hc0 hc1 x0 x1 = k1_pay2 (k1_pay9 x0 x1 (k1_pay4 (F := F))) := by
  unfold sout1_A_0
  rw [View.read_writes_eq_canon _ _ _ (scover1_A_0 c i arg3 harg3 arg4 harg4 arg5 harg5 arg6 harg6 arg7 harg7 arg8 harg8 hc0 hc1 x0 x1)]
  unfold kernelRun1_A
  dsimp only
  sl_unfold_words
  rw [View.canon_cons_unit_zero (S := S512x1) zeros2]
  simp only [View.readAt_eq_ld, harg3.read_unread, harg4.read_unread, View.ld_unit_zero (S := S1x512x512) zeros3, View.ld_unit_zero (S := S1x2048x512) zeros3,
    View.readCov_unit_zero (S := S512x1) _ zeros2, View.readCov_unit_zero (S := S512x512) _ zeros2]
set_option maxHeartbeats 4000000 in
theorem sout1_A_1_eq (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) :
    sout1_A_1 c i arg3 harg3 arg4 harg4 arg5 harg5 arg6 harg6 arg7 harg7 arg8 harg8 hc0 hc1 x0 x1 = k1_pay12 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 hc0 hc1 x0 x1)]
  unfold kernelRun1_A
  dsimp only
  sl_unfold_words
  rw [View.canon_cons_unit_zero (S := S512x1) zeros2]
  simp only [View.readAt_eq_ld, harg3.read_unread, harg4.read_unread, View.ld_unit_zero (S := S1x512x512) zeros3, View.ld_unit_zero (S := S1x2048x512) zeros3,
    View.readCov_unit_zero (S := S512x1) _ zeros2, View.readCov_unit_zero (S := S512x512) _ zeros2]
set_option maxHeartbeats 4000000 in
theorem sout1_A_2_eq (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond1_0 i) (hc1 : ¬cond1_1 i)
    (x0 : Vec F S1x512x512 .bf16) (x1 : Vec F S1x2048x512 .bf16) :
    sout1_A_2 c i arg3 harg3 arg4 harg4 arg5 harg5 arg6 harg6 arg7 harg7 arg8 harg8 hc0 hc1 x0 x1 = k1_pay1 (k1_pay13 x0 x1 (k1_pay4 (F := F)) (k1_pay4 (F := F)) (k1_pay6 (F := F))) := by
  unfold sout1_A_2
  rw [View.read_writes_eq_canon _ _ _ (scover1_A_2 c i arg3 harg3 arg4 harg4 arg5 harg5 arg6 harg6 arg7 harg7 arg8 harg8 hc0 hc1 x0 x1)]
  unfold kernelRun1_A
  dsimp only
  sl_unfold_words
  rw [View.canon_cons_unit_zero (S := S512x512) zeros2]
  simp only [View.readAt_eq_ld, harg3.read_unread, harg4.read_unread, View.ld_unit_zero (S := S1x512x512) zeros3, View.ld_unit_zero (S := S1x2048x512) zeros3,
    View.readCov_unit_zero (S := S512x1) _ zeros2, View.readCov_unit_zero (S := S512x512) _ zeros2]
set_option maxHeartbeats 4000000 in
theorem sout1_B_0_eq (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) :
    sout1_B_0 c i arg3 harg3 arg4 harg4 arg5 harg5 arg6 harg6 arg7 harg7 arg8 harg8 hc0 hc1 x0 x1 xs0 xs1 xs2 = k1_pay2 (k1_pay9 x0 x1 xs0) := by
  unfold sout1_B_0
  rw [View.read_writes_eq_canon _ _ _ (scover1_B_0 c i arg3 harg3 arg4 harg4 arg5 harg5 arg6 harg6 arg7 harg7 arg8 harg8 hc0 hc1 x0 x1 xs0 xs1 xs2)]
  unfold kernelRun1_B
  dsimp only
  sl_unfold_words
  rw [View.canon_unit_zero (S := S512x1) zeros2]
  simp only [View.readAt_eq_ld, harg3.read_unread, harg4.read_unread, View.ld_unit_zero (S := S1x512x512) zeros3, View.ld_unit_zero (S := S1x2048x512) zeros3,
    harg6.read_unread, harg7.read_unread, harg8.read_unread, View.ld_unit_zero (S := S512x1) zeros2, View.ld_unit_zero (S := S512x512) zeros2,
    View.readCov_unit_zero (S := S512x1) _ zeros2, View.readCov_unit_zero (S := S512x512) _ zeros2]
set_option maxHeartbeats 4000000 in
theorem sout1_B_1_eq (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) :
    sout1_B_1 c i arg3 harg3 arg4 harg4 arg5 harg5 arg6 harg6 arg7 harg7 arg8 harg8 hc0 hc1 x0 x1 xs0 xs1 xs2 = k1_pay12 x0 x1 xs0 xs0 xs1 := by
  unfold sout1_B_1
  rw [View.read_writes_eq_canon _ _ _ (scover1_B_1 c i arg3 harg3 arg4 harg4 arg5 harg5 arg6 harg6 arg7 harg7 arg8 harg8 hc0 hc1 x0 x1 xs0 xs1 xs2)]
  unfold kernelRun1_B
  dsimp only
  sl_unfold_words
  rw [View.canon_unit_zero (S := S512x1) zeros2]
  simp only [View.readAt_eq_ld, harg3.read_unread, harg4.read_unread, View.ld_unit_zero (S := S1x512x512) zeros3, View.ld_unit_zero (S := S1x2048x512) zeros3,
    harg6.read_unread, harg7.read_unread, harg8.read_unread, View.ld_unit_zero (S := S512x1) zeros2, View.ld_unit_zero (S := S512x512) zeros2,
    View.readCov_unit_zero (S := S512x1) _ zeros2, View.readCov_unit_zero (S := S512x512) _ zeros2]
set_option maxHeartbeats 4000000 in
theorem sout1_B_2_eq (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) :
    sout1_B_2 c i arg3 harg3 arg4 harg4 arg5 harg5 arg6 harg6 arg7 harg7 arg8 harg8 hc0 hc1 x0 x1 xs0 xs1 xs2 = k1_pay1 (k1_pay13 x0 x1 xs0 xs0 xs2) := by
  unfold sout1_B_2
  rw [View.read_writes_eq_canon _ _ _ (scover1_B_2 c i arg3 harg3 arg4 harg4 arg5 harg5 arg6 harg6 arg7 harg7 arg8 harg8 hc0 hc1 x0 x1 xs0 xs1 xs2)]
  unfold kernelRun1_B
  dsimp only
  sl_unfold_words
  rw [View.canon_unit_zero (S := S512x512) zeros2]
  simp only [View.readAt_eq_ld, harg3.read_unread, harg4.read_unread, View.ld_unit_zero (S := S1x512x512) zeros3, View.ld_unit_zero (S := S1x2048x512) zeros3,
    harg6.read_unread, harg7.read_unread, harg8.read_unread, View.ld_unit_zero (S := S512x1) zeros2, View.ld_unit_zero (S := S512x512) zeros2,
    View.readCov_unit_zero (S := S512x1) _ zeros2, View.readCov_unit_zero (S := S512x512) _ zeros2]
set_option maxHeartbeats 4000000 in
theorem out1_B_2_eq (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond1_0 i) (hc1 : cond1_1 i)
    (x0 : Vec F S1x512x512 .bf16) (x1 : Vec F S1x2048x512 .bf16) (xs0 : Vec F S512x1 .f32) (xs1 : Vec F S512x1 .f32) (xs2 : Vec F S512x512 .f32) :
    out1_B_2 c i arg3 harg3 arg4 harg4 arg5 harg5 arg6 harg6 arg7 harg7 arg8 harg8 hc0 hc1 x0 x1 xs0 xs1 xs2 = k1_pay3 (k1_pay12 x0 x1 xs0 xs0 xs1) (k1_pay1 (k1_pay13 x0 x1 xs0 xs0 xs2)) := by
  unfold out1_B_2
  rw [View.read_writes_eq_canon _ _ _ (cover1_B_2 c i arg3 harg3 arg4 harg4 arg5 harg5 arg6 harg6 arg7 harg7 arg8 harg8 hc0 hc1 x0 x1 xs0 xs1 xs2)]
  unfold kernelRun1_B
  dsimp only
  sl_unfold_words
  rw [View.canon_unit_zero (S := S1x512x512) zeros3]
  simp only [View.readAt_eq_ld, harg3.read_unread, harg4.read_unread, View.ld_unit_zero (S := S1x512x512) zeros3, View.ld_unit_zero (S := S1x2048x512) zeros3,
    harg6.read_unread, harg7.read_unread, harg8.read_unread, View.ld_unit_zero (S := S512x1) zeros2, View.ld_unit_zero (S := S512x512) zeros2,
    View.readCov_unit_zero (S := S512x1) _ zeros2, View.readCov_unit_zero (S := S512x512) _ zeros2]

end Cert.KernelIdeal.Hand

end
-- ==== Proof.Spec.lean ====
/-
  The mathematics both programs compute, over the extended reals, with no program in sight.

  A row of attention against 4096 keys: scores `s k`, one value column `v k`. The plain form subtracts the row
  maximum, exponentiates, normalises by the sum and contracts with the column. The streamed form sees the keys in two
  halves of 2048 and carries a running maximum `M`, a running denominator `L` and a running numerator `A`: a half
  raises `M` to `M'`, rescales what was carried by `exp (M - M')` and adds its own terms; at the end the numerator
  is divided by the denominator, guarded below by 10⁻³⁰. From real scores the two agree: the carried terms are
  `exp (s k - M)` rescaled to the final maximum because `exp (a - b) * exp (b - c) = exp (a - c)`; the first half
  starts from `M = -∞`, where the rescaling factor is `exp (-∞) = 0`; and the denominator is at least 1 (the key
  attaining the maximum contributes `exp 0`), so the guard is the identity and dividing the sum is summing the quotients.
-/
import Idealize.ShloMosaic.PureOps.Ideal
import Idealize.ShloMosaic.PureOps.Ideal.Laws
import Mathlib.Data.EReal.Basic
import Mathlib.Data.EReal.Operations
import Mathlib.Algebra.BigOperators.Fin
import Mathlib.Algebra.Order.BigOperators.Group.Finset
import Mathlib.Data.Finset.Fold
import Mathlib.Data.Finset.Max
import Mathlib.Analysis.Complex.Exponential
import Mathlib.Order.BoundedOrder.Lattice
import Mathlib.Tactic.Ring
import Mathlib.Tactic.NormNum

noncomputable section

open scoped BigOperators

namespace Cert.Spec

open Idealize.ShloMosaic

/-- The attention scale both programs multiply by: the same binary32 word on both sides, never evaluated. -/
def sc : EReal := Ideal.ofBits .f32 0x3E3504F3#32

/-- The denominator's guard, 10⁻³⁰. -/
def eps : EReal := ((1 / 1000000000000000000000000000000 : ℝ) : EReal)

/-- One entry of a linear layer: row `(n, s)` of the activations against column `p` of the weights, plus the bias. -/
def lin (X : Fin 4 → Fin 4096 → Fin 2048 → EReal) (W : Fin 2048 → Fin 512 → EReal) (b : Fin 512 → EReal)
    (n : Fin 4) (s : Fin 4096) (p : Fin 512) : EReal :=
  (∑ h : Fin 2048, X n s h * W h p) + b p

/-- One half of the keys folded into the carried maximum, denominator and numerator. -/
def step (M L A : EReal) (s v : Fin 2048 → EReal) : EReal × EReal × EReal :=
  (max M (Finset.univ.fold max ⊥ s),
   Ideal.exp (M - max M (Finset.univ.fold max ⊥ s)) * L + ∑ k, Ideal.exp (s k - max M (Finset.univ.fold max ⊥ s)),
   Ideal.exp (M - max M (Finset.univ.fold max ⊥ s)) * A + ∑ k, Ideal.exp (s k - max M (Finset.univ.fold max ⊥ s)) * v k)

/-- The streamed row: two halves from `(-∞, 0, 0)`, then the guarded quotient. -/
def online (s0 v0 s1 v1 : Fin 2048 → EReal) : EReal :=
  Ideal.div (step (step ⊥ 0 0 s0 v0).1 (step ⊥ 0 0 s0 v0).2.1 (step ⊥ 0 0 s0 v0).2.2 s1 v1).2.2
    (max (step (step ⊥ 0 0 s0 v0).1 (step ⊥ 0 0 s0 v0).2.1 (step ⊥ 0 0 s0 v0).2.2 s1 v1).2.1 eps)

/-- The plain row: softmax of the scores contracted with the column. -/
def plain (s v : Fin 4096 → EReal) : EReal :=
  ∑ k, Ideal.div (Ideal.exp (s k - max ⊥ (Finset.univ.fold max ⊥ s)))
      (0 + ∑ j, Ideal.exp (s j - max ⊥ (Finset.univ.fold max ⊥ s))) * v k

/-- Key `k` of the first half, -/
def lo (k : Fin 2048) : Fin 4096 := ⟨k.val, by omega⟩
/-- and of the second. -/
def hi (k : Fin 2048) : Fin 4096 := ⟨2048 + k.val, by omega⟩

/-! ### Real numbers inside the extended reals -/

/-- A finite sum of real numbers, read in the extended reals, is the real sum. -/
private theorem sum_coe {ι : Type} (t : Finset ι) (f : ι → ℝ) :
    ∑ k ∈ t, ((f k : ℝ) : EReal) = ((∑ k ∈ t, f k : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The larger of two real numbers, read in the extended reals. -/
private theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The running maximum of finitely many real scores, started from `-∞`, is the greatest of them: a real
    number, above every score and attained by one. -/
private theorem fold_max_coe {ι : Type} [Fintype ι] [Nonempty ι] (f : ι → ℝ) :
    ∃ m : ℝ, Finset.univ.fold max ⊥ (fun k => ((f k : ℝ) : EReal)) = (m : EReal) ∧ (∀ k, f k ≤ m) ∧ ∃ k, f k = m := by
  obtain ⟨k0, -, hk0⟩ := Finset.exists_max_image Finset.univ f Finset.univ_nonempty
  refine ⟨f k0, ?_, fun k => hk0 k (Finset.mem_univ k), k0, rfl⟩
  apply le_antisymm
  · exact (Finset.fold_max_le _).mpr ⟨bot_le, fun k _ => EReal.coe_le_coe_iff.mpr (hk0 k (Finset.mem_univ k))⟩
  · exact (Finset.le_fold_max _).mpr (Or.inr ⟨k0, Finset.mem_univ k0, le_rfl⟩)

/-- The guarded quotient by a real denominator that is at least 1: the guard `10⁻³⁰` is the identity and the
    quotient is the product with the reciprocal. -/
private theorem div_guard (A L : ℝ) (hL : 1 ≤ L) :
    Ideal.div (A : EReal) (max (L : EReal) eps) = ((A * (1 / L) : ℝ) : EReal) := by
  have hε : eps ≤ (L : EReal) := by
    unfold eps
    exact EReal.coe_le_coe_iff.mpr (le_trans (by norm_num) hL)
  rw [max_eq_left hε, Ideal.div_coe (lt_of_lt_of_le one_pos hL).ne', ← EReal.coe_mul]

/-! ### The two halves of the keys -/

/-- Every key is in the first half or in the second. -/
private theorem lo_or_hi (k : Fin 4096) : (∃ j, k = lo j) ∨ ∃ j, k = hi j := by
  have hk := k.isLt
  by_cases h : k.val < 2048
  · exact Or.inl ⟨⟨k.val, h⟩, Fin.ext rfl⟩
  · refine Or.inr ⟨⟨k.val - 2048, by omega⟩, Fin.ext ?_⟩
    show k.val = 2048 + (k.val - 2048)
    omega

/-- A sum over all keys is the sum over the first half plus the sum over the second. -/
private theorem sum_halves (f : Fin 4096 → ℝ) : ∑ k, f k = ∑ k, f (lo k) + ∑ k, f (hi k) :=
  Fin.sum_univ_add (a := 2048) (b := 2048) f

/-- Terms carried at the first half's maximum `m0`, rescaled by `exp (m0 - M)`, are terms at `M`:
    `exp (m0 - M) * exp (x - m0) = exp (x - M)`. With the second half's terms they make the whole sum. -/
private theorem rescale (s v : Fin 4096 → ℝ) (m0 M : ℝ) :
    Real.exp (m0 - M) * (∑ k, Real.exp (s (lo k) - m0) * v (lo k)) + ∑ k, Real.exp (s (hi k) - M) * v (hi k)
      = ∑ k, Real.exp (s k - M) * v k := by
  rw [sum_halves fun k => Real.exp (s k - M) * v k, Finset.mul_sum]
  congr 1
  refine Finset.sum_congr rfl fun k _ => ?_
  rw [← mul_assoc, ← Real.exp_add, show m0 - M + (s (lo k) - m0) = s (lo k) - M by ring]

/-- The same for the denominators. -/
private theorem rescale_one (s : Fin 4096 → ℝ) (m0 M : ℝ) :
    Real.exp (m0 - M) * (∑ k, Real.exp (s (lo k) - m0)) + ∑ k, Real.exp (s (hi k) - M) = ∑ k, Real.exp (s k - M) := by
  simpa only [mul_one] using rescale s (fun _ => 1) m0 M

/-- The key attaining the maximum contributes `exp 0 = 1` and the other terms are positive: the denominator is at least 1. -/
private theorem one_le_sum_exp (s : Fin 4096 → ℝ) (M : ℝ) (k0 : Fin 4096) (h : s k0 = M) :
    1 ≤ ∑ j, Real.exp (s j - M) := by
  have h1 : Real.exp (s k0 - M) = 1 := by rw [h, sub_self, Real.exp_zero]
  have h2 : Real.exp (s k0 - M) ≤ ∑ j, Real.exp (s j - M) :=
    Finset.single_le_sum (f := fun j => Real.exp (s j - M)) (fun j _ => (Real.exp_pos _).le) (Finset.mem_univ k0)
  rwa [h1] at h2

/-! ### The streamed and the plain row, from real scores -/

/-- The first half, folded in from `(-∞, 0, 0)`: what was carried drops out, since `exp (-∞) = 0`. -/
private theorem step_bot (s v : Fin 2048 → ℝ) (m : ℝ)
    (hm : Finset.univ.fold max ⊥ (fun k => ((s k : ℝ) : EReal)) = (m : EReal)) :
    step ⊥ 0 0 (fun k => ((s k : ℝ) : EReal)) (fun k => ((v k : ℝ) : EReal))
      = ((m : EReal), ((∑ k, Real.exp (s k - m) : ℝ) : EReal), ((∑ k, Real.exp (s k - m) * v k : ℝ) : EReal)) := by
  simp only [step, hm, max_bot_left, EReal.bot_sub, Ideal.exp_bot, mul_zero, zero_add, ← EReal.coe_sub,
    Ideal.exp_coe, ← EReal.coe_mul, sum_coe]

/-- A half folded into real carried values: everything stays real. -/
private theorem step_coe (M L A : ℝ) (s v : Fin 2048 → ℝ) (m : ℝ)
    (hm : Finset.univ.fold max ⊥ (fun k => ((s k : ℝ) : EReal)) = (m : EReal)) :
    step (M : EReal) (L : EReal) (A : EReal) (fun k => ((s k : ℝ) : EReal)) (fun k => ((v k : ℝ) : EReal))
      = (((max M m : ℝ) : EReal),
         ((Real.exp (M - max M m) * L + ∑ k, Real.exp (s k - max M m) : ℝ) : EReal),
         ((Real.exp (M - max M m) * A + ∑ k, Real.exp (s k - max M m) * v k : ℝ) : EReal)) := by
  simp only [step, hm, max_coe, ← EReal.coe_sub, Ideal.exp_coe, ← EReal.coe_mul, sum_coe, ← EReal.coe_add]

/-- The plain row from real scores with maximum `M`: a real number, each weight `exp (s k - M)` over the sum. -/
private theorem plain_coe (s v : Fin 4096 → ℝ) (M : ℝ)
    (hM : Finset.univ.fold max ⊥ (fun k => ((s k : ℝ) : EReal)) = (M : EReal))
    (hD : ∑ j, Real.exp (s j - M) ≠ 0) :
    plain (fun k => ((s k : ℝ) : EReal)) (fun k => ((v k : ℝ) : EReal))
      = ((∑ k, Real.exp (s k - M) * (1 / ∑ j, Real.exp (s j - M)) * v k : ℝ) : EReal) := by
  simp only [plain, hM, max_bot_left, ← EReal.coe_sub, Ideal.exp_coe, sum_coe, zero_add, Ideal.div_coe hD,
    ← EReal.coe_mul]

/-- A bit pattern whose exponent field is not all ones denotes a real number. -/
private theorem ieee_real (e m : ℕ) {w : ℕ} (b : BitVec w) (h : (b.extractLsb' m e).toNat ≠ 2 ^ e - 1) :
    ∃ r : ℝ, Ideal.ieee e m b = (r : EReal) := by
  unfold Ideal.ieee
  dsimp only
  rw [if_neg h]
  by_cases h0 : (b.extractLsb' m e).toNat = 0
  · rw [if_pos h0]; exact ⟨_, rfl⟩
  · rw [if_neg h0]; exact ⟨_, rfl⟩

/-- The scale is a real number. -/
theorem sc_real : ∃ r : ℝ, sc = (r : EReal) := by
  show ∃ r : ℝ, Ideal.ieee 8 23 (0x3E3504F3#32) = (r : EReal)
  exact ieee_real 8 23 (0x3E3504F3#32) (by decide)

/-- From real scores and a real column the streamed row is the plain row. -/
theorem online_eq_plain (s v : Fin 4096 → ℝ) :
    online (fun k => ((s (lo k) : ℝ) : EReal)) (fun k => ((v (lo k) : ℝ) : EReal))
        (fun k => ((s (hi k) : ℝ) : EReal)) (fun k => ((v (hi k) : ℝ) : EReal))
      = plain (fun k => ((s k : ℝ) : EReal)) (fun k => ((v k : ℝ) : EReal)) := by
  obtain ⟨m0, h0, hle0, k0, hk0⟩ := fold_max_coe fun k => s (lo k)
  obtain ⟨m1, h1, hle1, k1, hk1⟩ := fold_max_coe fun k => s (hi k)
  obtain ⟨M, hM, hleM, kM, hkM⟩ := fold_max_coe s
  have hmax : max m0 m1 = M := by
    apply le_antisymm
    · refine max_le ?_ ?_
      · rw [← hk0]; exact hleM _
      · rw [← hk1]; exact hleM _
    · rw [← hkM]
      rcases lo_or_hi kM with ⟨j, rfl⟩ | ⟨j, rfl⟩
      · exact le_trans (hle0 j) (le_max_left _ _)
      · exact le_trans (hle1 j) (le_max_right _ _)
  have hD1 : 1 ≤ ∑ j, Real.exp (s j - M) := one_le_sum_exp s M kM hkM
  have hD0 : ∑ j, Real.exp (s j - M) ≠ 0 := (lt_of_lt_of_le one_pos hD1).ne'
  rw [plain_coe s v M hM hD0]
  unfold online
  rw [step_bot (fun k => s (lo k)) (fun k => v (lo k)) m0 h0]
  dsimp only
  rw [step_coe m0 _ _ (fun k => s (hi k)) (fun k => v (hi k)) m1 h1]
  dsimp only
  rw [hmax, rescale s v m0 M, rescale_one s m0 M, div_guard _ _ hD1, EReal.coe_eq_coe_iff, Finset.sum_mul]
  exact Finset.sum_congr rfl fun k _ => mul_right_comm _ _ _

/-- A linear layer of real data is real. -/
theorem lin_real (X : Fin 4 → Fin 4096 → Fin 2048 → ℝ) (W : Fin 2048 → Fin 512 → ℝ) (b : Fin 512 → ℝ)
    (n : Fin 4) (s : Fin 4096) (p : Fin 512) :
    lin (fun n s h => ((X n s h : ℝ) : EReal)) (fun h p => ((W h p : ℝ) : EReal)) (fun p => ((b p : ℝ) : EReal)) n s p
      = (((∑ h : Fin 2048, X n s h * W h p) + b p : ℝ) : EReal) := by
  simp only [lin, ← EReal.coe_mul, sum_coe, ← EReal.coe_add]

/-- Scaling the query weights and bias by `c` scales the score by `c`: with real data,
    `∑ p, lin X (W · c) (b · c) · v p = (∑ p, lin X W b · v p) · c`. -/
theorem score_scale (X : Fin 4 → Fin 4096 → Fin 2048 → ℝ) (W : Fin 2048 → Fin 512 → ℝ) (b : Fin 512 → ℝ)
    (v : Fin 512 → ℝ) (c : ℝ) (n : Fin 4) (s : Fin 4096) :
    (∑ p : Fin 512, lin (fun n s h => ((X n s h : ℝ) : EReal)) (fun h p => ((W h p : ℝ) : EReal) * (c : EReal))
        (fun p => ((b p : ℝ) : EReal) * (c : EReal)) n s p * ((v p : ℝ) : EReal))
      = (∑ p : Fin 512, lin (fun n s h => ((X n s h : ℝ) : EReal)) (fun h p => ((W h p : ℝ) : EReal))
        (fun p => ((b p : ℝ) : EReal)) n s p * ((v p : ℝ) : EReal)) * (c : EReal) := by
  simp only [lin, ← EReal.coe_mul, sum_coe, ← EReal.coe_add]
  rw [EReal.coe_eq_coe_iff, Finset.sum_mul]
  refine Finset.sum_congr rfl fun p _ => ?_
  have hc : ∑ h : Fin 2048, X n s h * (W h p * c) = (∑ h : Fin 2048, X n s h * W h p) * c := by
    rw [Finset.sum_mul]
    exact Finset.sum_congr rfl fun h _ => (mul_assoc _ _ _).symm
  rw [hc]
  ring

/-- A score of real data is real. -/
theorem score_real (q v : Fin 512 → ℝ) (c : ℝ) :
    (∑ p : Fin 512, ((q p : ℝ) : EReal) * ((v p : ℝ) : EReal)) * (c : EReal) = (((∑ p : Fin 512, q p * v p) * c : ℝ) : EReal) := by
  simp only [← EReal.coe_mul, sum_coe]

end Cert.Spec

end
-- ==== Proof.Ideal.AttendRow.lean ====
/-
  The attention body's arithmetic read at one row, over the extended reals. For query row `i` of a 512-row block
  `x0` and a 2048-key block `x1`: the scores are the contractions over the 512 features; the new maximum is the carried
  one against the row's largest score; the denominator and the numerator are the carried ones rescaled by
  `exp (M - M')` plus the half's own terms: one `Spec.step`. The output entry is the numerator over the guarded
  denominator, the guard's literal standing for 10⁻³⁰.
-/
import proofs.«402456_j86346022519567_3_alg».proof.Proof.Gen.KernelIdeal.Skeleton
import proofs.«402456_j86346022519567_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Row `i`'s scores against the block's 2048 keys. -/
def rowScore (x0 : Vec Ideal S1x512x512 .bf16) (x1 : Vec Ideal S1x2048x512 .bf16) (i : Fin 512) (k : Fin 2048) : EReal :=
  ∑ p : Fin 512, x0 (ix3 (0 : Fin 1) i p) * x1 (ix3 (0 : Fin 1) k p)

/-! ## Layout operations at explicit coordinates -/

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions at a row -/

/-- Row `i` of the reduced vector with lane `k` put back is `(i, k)`. -/
private theorem lift_row (i : Fin 512) (k : Fin 2048) :
    reduces_S512x2048_S512.lift (ix1 i) k = ix2 i k := by
  funext c; apply Fin.ext
  match c with
  | ⟨0, _⟩ => rfl
  | ⟨1, _⟩ => rfl

/-- The binary32 word of `-∞` is the bottom of the extended reals. -/
private theorem ofBits_negInf : Ideal.ofBits .f32 0xFF800000#32 = ⊥ := by simp [Ideal.ofBits, Ideal.ieee]

/-- The lane maximum at row `i`: the fold of `max` from `-∞` over the row. -/
private theorem rowMax_apply (src : FVec Ideal S512x2048 .f32) (i : Fin 512) :
    multiReduction (F := Ideal) .maximumf [1] S512 src 0xFF800000#32 reduces_S512x2048_S512 (.inl rfl) rfl (ix1 i)
      = Finset.univ.fold max ⊥ (fun k : Fin 2048 => src (ix2 i k)) := by
  have hf : (fun k : Fin 2048 => src (reduces_S512x2048_S512.lift (ix1 i) k)) = fun k => src (ix2 i k) :=
    funext fun k => congrArg src (lift_row i k)
  exact (Ideal.multiReduction_maximumf_single src _ reduces_S512x2048_S512 _ _ (ix1 i)).trans
    (congrArg₂ (fun (b : EReal) (f : Fin 2048 → EReal) => Finset.fold max b f (Finset.univ : Finset (Fin 2048))) ofBits_negInf hf)

/-- The lane sum at row `i`: the sum over the row. -/
private theorem rowSum_apply (src : FVec Ideal S512x2048 .f32) (i : Fin 512) :
    multiReduction (F := Ideal) .add [1] S512 src 0x00000000#32 reduces_S512x2048_S512 (.inl rfl) rfl (ix1 i)
      = ∑ k : Fin 2048, src (ix2 i k) :=
  (Ideal.multiReduction_add_single src _ reduces_S512x2048_S512 _ _ (ix1 i)).trans
    (Finset.sum_congr rfl fun k _ => congrArg src (lift_row i k))

/-! ## The two matrix products at an entry -/

private theorem lhs_scores_0 (j : S512x2048.Idx) (q : dot_S512x512_S2048x512_S512x2048_1_1_0_0_n_n.contr.Idx) :
    (dot_S512x512_S2048x512_S512x2048_1_1_0_0_n_n.lhsIdx j q 0).val = (j 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
private theorem lhs_scores_1 (j : S512x2048.Idx) (q : dot_S512x512_S2048x512_S512x2048_1_1_0_0_n_n.contr.Idx) :
    (dot_S512x512_S2048x512_S512x2048_1_1_0_0_n_n.lhsIdx j q 1).val = (q ⟨0, by decide⟩).val :=
  dot_S512x512_S2048x512_S512x2048_1_1_0_0_n_n.lhsIdx_val_of_single rfl j q
private theorem rhs_scores_0 (j : S512x2048.Idx) (q : dot_S512x512_S2048x512_S512x2048_1_1_0_0_n_n.contr.Idx) :
    (dot_S512x512_S2048x512_S512x2048_1_1_0_0_n_n.rhsIdx j q 0).val = (j 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
private theorem rhs_scores_1 (j : S512x2048.Idx) (q : dot_S512x512_S2048x512_S512x2048_1_1_0_0_n_n.contr.Idx) :
    (dot_S512x512_S2048x512_S512x2048_1_1_0_0_n_n.rhsIdx j q 1).val = (q ⟨0, by decide⟩).val :=
  dot_S512x512_S2048x512_S512x2048_1_1_0_0_n_n.rhsIdx_val_of_single rfl j q

/-- The product contracted over the LAST axis of both operands, into the zero splat, at `(i, k)`. -/
private theorem scores_apply (l : FVec Ideal S512x512 .bf16) (r : FVec Ideal S2048x512 .bf16) (i : Fin 512) (k : Fin 2048) :
    matmul dot_S512x512_S2048x512_S512x2048_1_1_0_0_n_n none l r (constant (F := Ideal) S512x2048 .f32 0x00000000#32) (ix2 i k)
      = ∑ p : Fin 512, l (ix2 i p) * r (ix2 k p) := by
  refine (Ideal.matmul_constant_zero_apply dot_S512x512_S2048x512_S512x2048_1_1_0_0_n_n none l r (ix2 i k)).trans ?_
  rw [← Equiv.sum_comp (contrEquiv1 dot_S512x512_S2048x512_S512x2048_1_1_0_0_n_n 512 rfl rfl).symm]
  refine Finset.sum_congr rfl fun p _ => ?_
  have hp := contrEquiv1_symm_val dot_S512x512_S2048x512_S512x2048_1_1_0_0_n_n 512 rfl rfl p
  have el : dot_S512x512_S2048x512_S512x2048_1_1_0_0_n_n.lhsIdx (ix2 i k) ((contrEquiv1 dot_S512x512_S2048x512_S512x2048_1_1_0_0_n_n 512 rfl rfl).symm p) = ix2 i p := funext fun a => Fin.ext (by
    match a with
    | ⟨0, _⟩ => exact lhs_scores_0 _ _
    | ⟨1, _⟩ => exact (lhs_scores_1 _ _).trans hp)
  have er : dot_S512x512_S2048x512_S512x2048_1_1_0_0_n_n.rhsIdx (ix2 i k) ((contrEquiv1 dot_S512x512_S2048x512_S512x2048_1_1_0_0_n_n 512 rfl rfl).symm p) = ix2 k p := funext fun a => Fin.ext (by
    match a with
    | ⟨0, _⟩ => exact rhs_scores_0 _ _
    | ⟨1, _⟩ => exact (rhs_scores_1 _ _).trans hp)
  rw [el, er]

private theorem lhs_mix_0 (j : S512x512.Idx) (q : dot_S512x2048_S2048x512_S512x512_1_0_0_1_n_n.contr.Idx) :
    (dot_S512x2048_S2048x512_S512x512_1_0_0_1_n_n.lhsIdx j q 0).val = (j 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
private theorem lhs_mix_1 (j : S512x512.Idx) (q : dot_S512x2048_S2048x512_S512x512_1_0_0_1_n_n.contr.Idx) :
    (dot_S512x2048_S2048x512_S512x512_1_0_0_1_n_n.lhsIdx j q 1).val = (q ⟨0, by decide⟩).val :=
  dot_S512x2048_S2048x512_S512x512_1_0_0_1_n_n.lhsIdx_val_of_single rfl j q
private theorem rhs_mix_0 (j : S512x512.Idx) (q : dot_S512x2048_S2048x512_S512x512_1_0_0_1_n_n.contr.Idx) :
    (dot_S512x2048_S2048x512_S512x512_1_0_0_1_n_n.rhsIdx j q 0).val = (q ⟨0, by decide⟩).val :=
  dot_S512x2048_S2048x512_S512x512_1_0_0_1_n_n.rhsIdx_val_of_single rfl j q
private theorem rhs_mix_1 (j : S512x512.Idx) (q : dot_S512x2048_S2048x512_S512x512_1_0_0_1_n_n.contr.Idx) :
    (dot_S512x2048_S2048x512_S512x512_1_0_0_1_n_n.rhsIdx j q 1).val = (j 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The ordinary product, into the zero splat, at `(i, p)`. -/
private theorem mix_apply (l : FVec Ideal S512x2048 .bf16) (r : FVec Ideal S2048x512 .bf16) (i : Fin 512) (p : Fin 512) :
    matmul dot_S512x2048_S2048x512_S512x512_1_0_0_1_n_n none l r (constant (F := Ideal) S512x512 .f32 0x00000000#32) (ix2 i p)
      = ∑ k : Fin 2048, l (ix2 i k) * r (ix2 k p) := by
  refine (Ideal.matmul_constant_zero_apply dot_S512x2048_S2048x512_S512x512_1_0_0_1_n_n none l r (ix2 i p)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 i p) ((contrEquiv1 dot_S512x2048_S2048x512_S512x512_1_0_0_1_n_n 2048 rfl rfl).symm k) = ix2 i k := funext fun a => Fin.ext (by
    match a with
    | ⟨0, _⟩ => exact lhs_mix_0 _ _
    | ⟨1, _⟩ => exact (lhs_mix_1 _ _).trans hk)
  have er : dot_S512x2048_S2048x512_S512x512_1_0_0_1_n_n.rhsIdx (ix2 i p) ((contrEquiv1 dot_S512x2048_S2048x512_S512x512_1_0_0_1_n_n 2048 rfl rfl).symm k) = ix2 k p := funext fun a => Fin.ext (by
    match a with
    | ⟨0, _⟩ => exact (rhs_mix_0 _ _).trans hk
    | ⟨1, _⟩ => exact rhs_mix_1 _ _)
  rw [el, er]

/-! ## The payloads at a row -/

/-- The key block with its unit axis dropped. -/
private theorem pay7_apply (x1 : Vec Ideal S1x2048x512 .bf16) (k : Fin 2048) (p : Fin 512) :
    (k1_pay7 x1 : FVec Ideal S2048x512 .bf16) (ix2 k p) = x1 (ix3 (0 : Fin 1) k p) :=
  shapeCast_1ab_ab_apply x1 shapeCasts_S1x2048x512_S2048x512 k p

/-- The scores: entry `(i, k)` is row `i`'s score against key `k`. -/
private theorem pay8_apply (x0 : Vec Ideal S1x512x512 .bf16) (x1 : Vec Ideal S1x2048x512 .bf16) (i : Fin 512) (k : Fin 2048) :
    (k1_pay8 x0 x1 : FVec Ideal S512x2048 .f32) (ix2 i k) = rowScore x0 x1 i k := by
  refine (scores_apply (shapeCast S512x512 x0 shapeCasts_S1x512x512_S512x512) (k1_pay7 x1) i k).trans ?_
  unfold rowScore
  exact Finset.sum_congr rfl fun p _ =>
    congrArg₂ (fun a b : EReal => a * b) (shapeCast_1ab_ab_apply x0 shapeCasts_S1x512x512_S512x512 i p) (pay7_apply x1 k p)

/-- The new maximum: the carried one against the row's largest score. -/
private theorem pay9_apply (x0 : Vec Ideal S1x512x512 .bf16) (x1 : Vec Ideal S1x2048x512 .bf16) (M : Vec Ideal S512x1 .f32) (i : Fin 512) :
    (k1_pay9 x0 x1 M : FVec Ideal S512x1 .f32) (ix2 i (0 : Fin 1)) = max (M (ix2 i (0 : Fin 1))) (Finset.univ.fold max ⊥ (rowScore x0 x1 i)) := by
  have h : shapeCast S512x1 (multiReduction (F := Ideal) .maximumf [1] S512 (k1_pay8 x0 x1) 0xFF800000#32 reduces_S512x2048_S512 (.inl rfl) rfl) shapeCasts_S512_S512x1 (ix2 i (0 : Fin 1))
      = Finset.univ.fold max ⊥ (rowScore x0 x1 i) :=
    (shapeCast_a_a1_apply _ shapeCasts_S512_S512x1 i (0 : Fin 1)).trans
      ((rowMax_apply (k1_pay8 x0 x1) i).trans
        (congrArg (fun f : Fin 2048 → EReal => Finset.univ.fold max ⊥ f) (funext fun k => pay8_apply x0 x1 i k)))
  exact congrArg (fun e : EReal => max (M (ix2 i (0 : Fin 1))) e) h

/-- The rescaling factor of what was carried. -/
private theorem pay10_apply (x0 : Vec Ideal S1x512x512 .bf16) (x1 : Vec Ideal S1x2048x512 .bf16) (M M2 : Vec Ideal S512x1 .f32) (i : Fin 512) :
    (k1_pay10 x0 x1 M M2 : FVec Ideal S512x1 .f32) (ix2 i (0 : Fin 1))
      = Ideal.exp (M2 (ix2 i (0 : Fin 1)) - max (M (ix2 i (0 : Fin 1))) (Finset.univ.fold max ⊥ (rowScore x0 x1 i))) :=
  congrArg (fun e : EReal => Ideal.exp (M2 (ix2 i (0 : Fin 1)) - e)) (pay9_apply x0 x1 M i)

/-- The half's own terms: the exponential of each score less the new maximum. -/
private theorem pay11_apply (x0 : Vec Ideal S1x512x512 .bf16) (x1 : Vec Ideal S1x2048x512 .bf16) (M : Vec Ideal S512x1 .f32) (i : Fin 512) (k : Fin 2048) :
    (k1_pay11 x0 x1 M : FVec Ideal S512x2048 .f32) (ix2 i k)
      = Ideal.exp (rowScore x0 x1 i k - max (M (ix2 i (0 : Fin 1))) (Finset.univ.fold max ⊥ (rowScore x0 x1 i))) := by
  have h : broadcastTo S512x2048 (k1_pay9 x0 x1 M : FVec Ideal S512x1 .f32) broadcasts_S512x1_S512x2048 (ix2 i k) = max (M (ix2 i (0 : Fin 1))) (Finset.univ.fold max ⊥ (rowScore x0 x1 i)) :=
    (broadcastTo_a1_ab_apply _ broadcasts_S512x1_S512x2048 i k).trans (pay9_apply x0 x1 M i)
  exact congrArg₂ (fun a b : EReal => Ideal.exp (a - b)) (pay8_apply x0 x1 i k) h

/-- The new denominator. -/
private theorem pay12_apply (x0 : Vec Ideal S1x512x512 .bf16) (x1 : Vec Ideal S1x2048x512 .bf16) (M M2 L : Vec Ideal S512x1 .f32) (i : Fin 512) :
    (k1_pay12 x0 x1 M M2 L : FVec Ideal S512x1 .f32) (ix2 i (0 : Fin 1))
      = Ideal.exp (M2 (ix2 i (0 : Fin 1)) - max (M (ix2 i (0 : Fin 1))) (Finset.univ.fold max ⊥ (rowScore x0 x1 i))) * L (ix2 i (0 : Fin 1))
        + ∑ k : Fin 2048, Ideal.exp (rowScore x0 x1 i k - max (M (ix2 i (0 : Fin 1))) (Finset.univ.fold max ⊥ (rowScore x0 x1 i))) := by
  have hs : shapeCast S512x1 (multiReduction (F := Ideal) .add [1] S512 (k1_pay11 x0 x1 M) 0x00000000#32 reduces_S512x2048_S512 (.inl rfl) rfl) shapeCasts_S512_S512x1 (ix2 i (0 : Fin 1))
      = ∑ k : Fin 2048, Ideal.exp (rowScore x0 x1 i k - max (M (ix2 i (0 : Fin 1))) (Finset.univ.fold max ⊥ (rowScore x0 x1 i))) :=
    (shapeCast_a_a1_apply _ shapeCasts_S512_S512x1 i (0 : Fin 1)).trans
      ((rowSum_apply (k1_pay11 x0 x1 M) i).trans (Finset.sum_congr rfl fun k _ => pay11_apply x0 x1 M i k))
  have e : (k1_pay12 x0 x1 M M2 L : FVec Ideal S512x1 .f32)
      = addf (mulf (k1_pay10 x0 x1 M M2) L) (shapeCast S512x1 (multiReduction (F := Ideal) .add [1] S512 (k1_pay11 x0 x1 M) 0x00000000#32 reduces_S512x2048_S512 (.inl rfl) rfl) shapeCasts_S512_S512x1) :=
    shapeCast_self _ shapeCasts_S512x1_S512x1
  exact (congrFun e (ix2 i (0 : Fin 1))).trans
    (congrArg₂ (fun a b : EReal => a * L (ix2 i (0 : Fin 1)) + b) (pay10_apply x0 x1 M M2 i) hs)

/-- The new numerator at column `p`. -/
private theorem pay13_apply (x0 : Vec Ideal S1x512x512 .bf16) (x1 : Vec Ideal S1x2048x512 .bf16) (M M2 : Vec Ideal S512x1 .f32)
    (A : Vec Ideal S512x512 .f32) (i : Fin 512) (p : Fin 512) :
    (k1_pay13 x0 x1 M M2 A : FVec Ideal S512x512 .f32) (ix2 i p)
      = Ideal.exp (M2 (ix2 i (0 : Fin 1)) - max (M (ix2 i (0 : Fin 1))) (Finset.univ.fold max ⊥ (rowScore x0 x1 i))) * A (ix2 i p)
        + ∑ k : Fin 2048, Ideal.exp (rowScore x0 x1 i k - max (M (ix2 i (0 : Fin 1))) (Finset.univ.fold max ⊥ (rowScore x0 x1 i))) * x1 (ix3 (0 : Fin 1) k p) := by
  have hb : broadcastTo S512x512 (k1_pay10 x0 x1 M M2 : FVec Ideal S512x1 .f32) broadcasts_S512x1_S512x512 (ix2 i p)
      = Ideal.exp (M2 (ix2 i (0 : Fin 1)) - max (M (ix2 i (0 : Fin 1))) (Finset.univ.fold max ⊥ (rowScore x0 x1 i))) :=
    (broadcastTo_a1_ab_apply _ broadcasts_S512x1_S512x512 i p).trans (pay10_apply x0 x1 M M2 i)
  have hm : matmul dot_S512x2048_S2048x512_S512x512_1_0_0_1_n_n none (truncf .bf16 (k1_pay11 x0 x1 M : FVec Ideal S512x2048 .f32) bitsLt_bf16_f32)
        (k1_pay7 x1) (constant (F := Ideal) S512x512 .f32 0x00000000#32) (ix2 i p)
      = ∑ k : Fin 2048, Ideal.exp (rowScore x0 x1 i k - max (M (ix2 i (0 : Fin 1))) (Finset.univ.fold max ⊥ (rowScore x0 x1 i))) * x1 (ix3 (0 : Fin 1) k p) :=
    (mix_apply _ _ i p).trans (Finset.sum_congr rfl fun k _ =>
      congrArg₂ (fun a b : EReal => a * b) (pay11_apply x0 x1 M i k) (pay7_apply x1 k p))
  exact congrArg₂ (fun a b : EReal => a * A (ix2 i p) + b) hb hm

/-- The guard's named literal is `10⁻³⁰`. -/
private theorem guard_eq : Named.named (F := Ideal) κ "inv_1000000000000000000000000000000" (φ := .f32) 0x0DA24260#32 = Spec.eps :=
  IdealRules.named_const.ideal_named_scalar _ _ _ _ rfl

/-- The stored quotient: the numerator over the guarded denominator. -/
private theorem pay3_apply (l : Vec Ideal S512x1 .f32) (a : Vec Ideal S512x512 .f32) (i : Fin 512) (p : Fin 512) :
    (k1_pay3 l a : FVec Ideal S1x512x512 .f32) (ix3 (0 : Fin 1) i p)
      = Ideal.div (a (ix2 i p)) (max (l (ix2 i (0 : Fin 1))) Spec.eps) := by
  have hb : broadcastTo S512x512 (maximumf l (broadcast S512x1 (Named.named (F := Ideal) κ "inv_1000000000000000000000000000000" (φ := .f32) 0x0DA24260#32))) broadcasts_S512x1_S512x512 (ix2 i p)
      = max (l (ix2 i (0 : Fin 1))) Spec.eps :=
    (broadcastTo_a1_ab_apply _ broadcasts_S512x1_S512x512 i p).trans
      (congrArg (fun e : EReal => max (l (ix2 i (0 : Fin 1))) e) guard_eq)
  exact (shapeCast_ab_1ab_apply (divf (F := Ideal) a (broadcastTo S512x512 (maximumf l (broadcast S512x1 (Named.named (F := Ideal) κ "inv_1000000000000000000000000000000" (φ := .f32) 0x0DA24260#32))) broadcasts_S512x1_S512x512))
      shapeCasts_S512x512_S1x512x512 (0 : Fin 1) i p).trans
    (congrArg (fun d : EReal => Ideal.div (a (ix2 i p)) d) hb)

/-- The three initial carries: `-∞`, `0`, `0`. -/
private theorem pay4_apply (j : S512x1.Idx) : (k1_pay4 (F := Ideal)) j = ⊥ :=
  (congrFun (shapeCast_self (broadcast S512x1 (Ideal.ofBits .f32 0xFF800000#32)) shapeCasts_S512x1_S512x1) j).trans ofBits_negInf
private theorem pay5_apply (j : S512x1.Idx) : (k1_pay5 (F := Ideal)) j = 0 :=
  (congrFun (shapeCast_self (broadcast S512x1 (Ideal.ofBits .f32 0x00000000#32)) shapeCasts_S512x1_S512x1) j).trans Ideal.ofBits_zero_f32
private theorem pay6_apply (j : S512x512.Idx) : (k1_pay6 (F := Ideal)) j = 0 :=
  (congrFun (shapeCast_self (broadcast S512x512 (Ideal.ofBits .f32 0x00000000#32)) shapeCasts_S512x512_S512x512) j).trans Ideal.ofBits_zero_f32

/-- The two stores' casts to their own shape are the identity. -/
private theorem pay1_eq (v : FVec Ideal S512x512 .f32) : (k1_pay1 v : FVec Ideal S512x512 .f32) = v :=
  shapeCast_self v shapeCasts_S512x512_S512x512
private theorem pay2_eq (v : FVec Ideal S512x1 .f32) : (k1_pay2 v : FVec Ideal S512x1 .f32) = v :=
  shapeCast_self v shapeCasts_S512x1_S512x1

/-- An even point's three stores at row `i` (and column `p`): one step from `(-∞, 0, 0)`. -/
theorem first_half (x0 : Vec Ideal S1x512x512 .bf16) (x1 : Vec Ideal S1x2048x512 .bf16) (i : Fin 512) (p : Fin 512) :
    (k1_pay2 (k1_pay9 x0 x1 (k1_pay4 (F := Ideal))) : Vec Ideal S512x1 .f32) (ix2 i (0 : Fin 1))
        = (Spec.step ⊥ 0 0 (rowScore x0 x1 i) (fun k => x1 (ix3 (0 : Fin 1) k p))).1
    ∧ (k1_pay12 x0 x1 (k1_pay4 (F := Ideal)) (k1_pay4 (F := Ideal)) (k1_pay5 (F := Ideal)) : Vec Ideal S512x1 .f32) (ix2 i (0 : Fin 1))
        = (Spec.step ⊥ 0 0 (rowScore x0 x1 i) (fun k => x1 (ix3 (0 : Fin 1) k p))).2.1
    ∧ (k1_pay1 (k1_pay13 x0 x1 (k1_pay4 (F := Ideal)) (k1_pay4 (F := Ideal)) (k1_pay6 (F := Ideal))) : Vec Ideal S512x512 .f32) (ix2 i p)
        = (Spec.step ⊥ 0 0 (rowScore x0 x1 i) (fun k => x1 (ix3 (0 : Fin 1) k p))).2.2 := by
  refine ⟨?_, ?_, ?_⟩
  · have h := pay9_apply x0 x1 (k1_pay4 (F := Ideal)) i
    rw [pay4_apply] at h
    exact (congrFun (pay2_eq (k1_pay9 x0 x1 (k1_pay4 (F := Ideal)))) (ix2 i (0 : Fin 1))).trans h
  · have h := pay12_apply x0 x1 (k1_pay4 (F := Ideal)) (k1_pay4 (F := Ideal)) (k1_pay5 (F := Ideal)) i
    rw [pay4_apply, pay5_apply] at h
    exact h
  · have h := pay13_apply x0 x1 (k1_pay4 (F := Ideal)) (k1_pay4 (F := Ideal)) (k1_pay6 (F := Ideal)) i p
    rw [pay4_apply, pay6_apply] at h
    exact (congrFun (pay1_eq (k1_pay13 x0 x1 (k1_pay4 (F := Ideal)) (k1_pay4 (F := Ideal)) (k1_pay6 (F := Ideal)))) (ix2 i p)).trans h

/-- An odd point's stored quotient at `(i, p)`: one more step from what was carried in, then the guarded division. -/
theorem second_half (x0 : Vec Ideal S1x512x512 .bf16) (x1 : Vec Ideal S1x2048x512 .bf16)
    (M L : Vec Ideal S512x1 .f32) (A : Vec Ideal S512x512 .f32) (i : Fin 512) (p : Fin 512) :
    (k1_pay3 (k1_pay12 x0 x1 M M L) (k1_pay1 (k1_pay13 x0 x1 M M A)) : Vec Ideal S1x512x512 .f32) (ix3 (0 : Fin 1) i p)
      = Ideal.div (Spec.step (M (ix2 i (0 : Fin 1))) (L (ix2 i (0 : Fin 1))) (A (ix2 i p)) (rowScore x0 x1 i) (fun k => x1 (ix3 (0 : Fin 1) k p))).2.2
          (max (Spec.step (M (ix2 i (0 : Fin 1))) (L (ix2 i (0 : Fin 1))) (A (ix2 i p)) (rowScore x0 x1 i) (fun k => x1 (ix3 (0 : Fin 1) k p))).2.1 Spec.eps) := by
  have e1 : (k1_pay1 (k1_pay13 x0 x1 M M A) : FVec Ideal S512x512 .f32) (ix2 i p) = k1_pay13 x0 x1 M M A (ix2 i p) :=
    congrFun (pay1_eq (k1_pay13 x0 x1 M M A)) (ix2 i p)
  exact (pay3_apply _ _ i p).trans
    (congrArg₂ (fun a l : EReal => Ideal.div a (max l Spec.eps)) (e1.trans (pay13_apply x0 x1 M M A i p)) (pay12_apply x0 x1 M M L i))

end Cert.KernelIdeal.Hand

end
-- ==== Proof.Ideal.AttendArray.lean ====
/-
  The attention launch's result array as ONE function of the two arrays it is entered from (queries; keys, which are
  also the values). Grid point t stands for batch t / 16, query band t / 2 % 8 and key half t % 2. An odd point
  writes back its band's 512×512 block: row i, column p is the streamed softmax row of Spec.online — the first half's
  scores and value column from the even point before it (same batch, same band, keys 0..2047), the second half's from
  its own blocks (keys 2048..4095). The odd points' blocks tile the array.
-/
import proofs.«402456_j86346022519567_3_alg».proof.Proof.Ideal.AttendPieces
import proofs.«402456_j86346022519567_3_alg».proof.Proof.Ideal.AttendRow

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-- The scaled queries and the keys (also the values), as the launch finds them. -/
abbrev qArr : S4x4096x512.Idx → EReal := V c main_v10
abbrev kArr : S4x4096x512.Idx → EReal := V c main_v11

/-- Entry (n, s, p) of the result: the streamed row of query (n, s) against batch n's 4096 keys, column p. -/
def attnAt (n : Fin 4) (s : Fin 4096) (p : Fin 512) : EReal :=
  Spec.online
    (fun k => ∑ p' : Fin 512, qArr V c (ix3 n s p') * kArr V c (ix3 n (Spec.lo k) p'))
    (fun k => kArr V c (ix3 n (Spec.lo k) p))
    (fun k => ∑ p' : Fin 512, qArr V c (ix3 n s p') * kArr V c (ix3 n (Spec.hi k) p'))
    (fun k => kArr V c (ix3 n (Spec.hi k) p))

/-- The same as a function of the array index. -/
def attn : S4x4096x512.Idx → EReal := fun j => attnAt V c (j 0) (j 1) (j 2)

theorem N1_lt (t : Fin cfg1.N) : t.val < 64 := lt_of_lt_of_eq t.isLt (show cfg1.N = 64 from N_1)

/-- The printed index maps in closed form, decided over the grid. -/
theorem idx_closed : ∀ t : Fin cfg1.N,
    win1_0.index t (0 : Fin 3) = t.val / 16 ∧ win1_0.index t (1 : Fin 3) = t.val / 2 % 8 ∧ win1_0.index t (2 : Fin 3) = 0
    ∧ win1_1.index t (0 : Fin 3) = t.val / 16 ∧ win1_1.index t (1 : Fin 3) = t.val % 2 ∧ win1_1.index t (2 : Fin 3) = 0
    ∧ win1_2.index t (0 : Fin 3) = t.val / 16 ∧ win1_2.index t (1 : Fin 3) = t.val / 2 % 8 ∧ win1_2.index t (2 : Fin 3) = 0 :=
  (by decide +kernel : ∀ t : Fin grid1.N, _)

/-- Point t's batch, -/
def tb (t : Fin cfg1.N) : Fin 4 := ⟨t.val / 16, by have := N1_lt t; omega⟩
/-- row i of its query band, -/
def tq (t : Fin cfg1.N) (i : Fin 512) : Fin 4096 := ⟨512 * (t.val / 2 % 8) + i.val, by have := i.isLt; omega⟩
/-- key k of its key half, as array rows. -/
def tk (t : Fin cfg1.N) (k : Fin 2048) : Fin 4096 := ⟨2048 * (t.val % 2) + k.val, by have := k.isLt; omega⟩

/-- The query block at a point is its band of the query array. -/
theorem q_block (t : Fin cfg1.N) (i : Fin 512) (p : Fin 512) :
    (iblk1 V c 0 t : Vec Ideal S1x512x512 .bf16) (ix3 (0 : Fin 1) i p) = qArr V c (ix3 (tb t) (tq t i) p) := by
  obtain ⟨e0, e1, e2, -, -, -, -, -, -⟩ := idx_closed t
  unfold iblk1
  show V c main_v10 (((cfg1.win 0).blk t).view.emb (ix3 (0 : Fin 1) i p)) = V c main_v10 (ix3 (tb t) (tq t i) p)
  refine congrArg (V c main_v10) ?_
  funext a; apply Fin.ext
  match a with
  | ⟨0, _⟩ => show win1_0.index t (0 : Fin 3) * 1 + 1 * 0 = t.val / 16; omega
  | ⟨1, _⟩ => show win1_0.index t (1 : Fin 3) * 512 + 1 * i.val = 512 * (t.val / 2 % 8) + i.val; omega
  | ⟨2, _⟩ => show win1_0.index t (2 : Fin 3) * 512 + 1 * p.val = p.val; omega

/-- The key block at a point is its half of the batch's keys. -/
theorem k_block (t : Fin cfg1.N) (k : Fin 2048) (p : Fin 512) :
    (iblk1 V c 1 t : Vec Ideal S1x2048x512 .bf16) (ix3 (0 : Fin 1) k p) = kArr V c (ix3 (tb t) (tk t k) p) := by
  obtain ⟨-, -, -, e0, e1, e2, -, -, -⟩ := idx_closed t
  unfold iblk1
  show V c main_v11 (((cfg1.win 1).blk t).view.emb (ix3 (0 : Fin 1) k p)) = V c main_v11 (ix3 (tb t) (tk t k) p)
  refine congrArg (V c main_v11) ?_
  funext a; apply Fin.ext
  match a with
  | ⟨0, _⟩ => show win1_1.index t (0 : Fin 3) * 1 + 1 * 0 = t.val / 16; omega
  | ⟨1, _⟩ => show win1_1.index t (1 : Fin 3) * 2048 + 1 * k.val = 2048 * (t.val % 2) + k.val; omega
  | ⟨2, _⟩ => show win1_1.index t (2 : Fin 3) * 512 + 1 * p.val = p.val; omega

/-- Entry (i, p) of the output block at a point is entry (band row, p) of the array. -/
theorem out_emb (t : Fin cfg1.N) (i : Fin 512) (p : Fin 512) :
    ((cfg1.win 2).blk t).view.emb (ix3 (0 : Fin 1) i p) = (ix3 (tb t) (tq t i) p : S4x4096x512.Idx) := by
  obtain ⟨-, -, -, -, -, -, e0, e1, e2⟩ := idx_closed t
  funext a; apply Fin.ext
  match a with
  | ⟨0, _⟩ => show win1_2.index t (0 : Fin 3) * 1 + 1 * 0 = t.val / 16; omega
  | ⟨1, _⟩ => show win1_2.index t (1 : Fin 3) * 512 + 1 * i.val = 512 * (t.val / 2 % 8) + i.val; omega
  | ⟨2, _⟩ => show win1_2.index t (2 : Fin 3) * 512 + 1 * p.val = p.val; omega

/-- A row's scores against a point's key block are its contractions with the batch's keys of that half. -/
theorem rowScore_blocks (t t' : Fin cfg1.N) (hb : tb t' = tb t) (i : Fin 512) (hq : tq t' i = tq t i) :
    rowScore (iblk1 V c 0 t') (iblk1 V c 1 t') i
      = fun k => ∑ p' : Fin 512, qArr V c (ix3 (tb t) (tq t i) p') * kArr V c (ix3 (tb t) (tk t' k) p') := by
  funext k
  unfold rowScore
  refine Finset.sum_congr rfl fun p' _ => ?_
  rw [q_block V c t' i p', k_block V c t' k p', hb, hq]

/-- WHAT AN ODD POINT WRITES BACK is its block of the result function. -/
theorem flushed_odd (t : Fin cfg1.N) (hodd : t.val % 2 = 1) :
    (dat1 V c).flushed 2 t = ((cfg1.win 2).blk t).view.read (Elt Ideal) (attn V c) := by
  have hN := N1_lt t
  have h0 : ¬t.val % 2 = 0 := by omega
  have hlt : t.val - 1 < cfg1.N := Nat.lt_of_le_of_lt (Nat.sub_le _ _) t.isLt
  -- the even point before it: same batch, same band, first key half
  have hb : tb ⟨t.val - 1, hlt⟩ = tb t := Fin.ext (by show (t.val - 1) / 16 = t.val / 16; omega)
  have hk0 : ∀ k : Fin 2048, tk ⟨t.val - 1, hlt⟩ k = Spec.lo k := fun k => Fin.ext (by
    show 2048 * ((t.val - 1) % 2) + k.val = k.val; omega)
  have hk1 : ∀ k : Fin 2048, tk t k = Spec.hi k := fun k => Fin.ext (by
    show 2048 * (t.val % 2) + k.val = 2048 + k.val; omega)
  have hprev := outsAt1_A V c ⟨t.val - 1, hlt⟩ (by show (t.val - 1) % 2 = 0; omega) (by show ¬(t.val - 1) % 2 = 1; omega)
  show (cfg1.win 2).cut (grid1.coords t) ((dat1 V c).after 2 t) = _
  rw [after1_2, outsAt1_B V c t h0 hodd]
  dsimp only
  rw [out1_B_2_eq]
  rw [show outsAt1 V c (t.val - 1) (Nat.lt_of_le_of_lt (Nat.sub_le _ _) t.isLt) = _ from hprev]
  dsimp only
  rw [sout1_A_0_eq, sout1_A_1_eq, sout1_A_2_eq]
  funext y
  obtain ⟨z, i, p, rfl⟩ : ∃ (z : Fin 1) (i : Fin 512) (p : Fin 512), y = ix3 z i p := ⟨y 0, y 1, y 2, eq_ix3 y⟩
  obtain rfl : z = 0 := Subsingleton.elim _ _
  have hq : tq ⟨t.val - 1, hlt⟩ i = tq t i := Fin.ext (by
    show 512 * ((t.val - 1) / 2 % 8) + i.val = 512 * (t.val / 2 % 8) + i.val; omega)
  show _ = attn V c (((cfg1.win 2).blk t).view.emb (ix3 (0 : Fin 1) i p))
  rw [out_emb t i p]
  show (k1_pay3 (F := Ideal) _ _ : FVec Ideal S1x512x512 .f32) (ix3 (0 : Fin 1) i p) = attnAt V c (tb t) (tq t i) p
  rw [second_half]
  obtain ⟨e1, e2, e3⟩ := first_half (iblk1 V c 0 ⟨t.val - 1, hlt⟩) (iblk1 V c 1 ⟨t.val - 1, hlt⟩) i p
  rw [e1, e2, e3]
  show Spec.online _ _ _ _ = _
  unfold attnAt
  rw [rowScore_blocks V c t ⟨t.val - 1, hlt⟩ hb i hq, rowScore_blocks V c t t rfl i rfl]
  simp only [k_block, hb, hk0, hk1]

/-- An array index is in a point's output block iff each coordinate is in the block's range. -/
theorem mem_blk_out (t : Fin cfg1.N) (j : S4x4096x512.Idx) :
    j ∈ ((cfg1.win 2).blk t).view.set ↔ ∀ a : Fin 3, win1_2.index t a * S1x512x512.size a ≤ (j a).val ∧ (j a).val < win1_2.index t a * S1x512x512.size a + S1x512x512.size a := by
  show j ∈ ((View.whole main_v12).slice (win1_2.rect t)).set ↔ _
  rw [View.set_slice_whole, Rect.mem_set_unit]
  exact Iff.rfl

/-- The odd points' blocks cover the array: entry (n, s, ·) lies in the block of batch n, band s / 512, second half. -/
theorem cover_out (j : S4x4096x512.Idx) :
    ∃ t : Fin cfg1.N, (cfg1.win 2).flush t = true ∧ j ∈ ((cfg1.win 2).blk t).view.set := by
  have h0 : (j 0).val < 4 := (j 0).isLt
  have h1 : (j 1).val < 4096 := (j 1).isLt
  have h2 : (j 2).val < 512 := (j 2).isLt
  have hlt : ((j 0).val * 8 + (j 1).val / 512) * 2 + 1 < cfg1.N := by
    rw [show cfg1.N = 64 from N_1]; omega
  refine ⟨⟨((j 0).val * 8 + (j 1).val / 512) * 2 + 1, hlt⟩, (flush1_2 _).mpr (by show (((j 0).val * 8 + (j 1).val / 512) * 2 + 1) % 2 = 1; omega), ?_⟩
  rw [mem_blk_out]
  obtain ⟨-, -, -, -, -, -, e0, e1, e2⟩ := idx_closed ⟨((j 0).val * 8 + (j 1).val / 512) * 2 + 1, hlt⟩
  have e0' : win1_2.index ⟨((j 0).val * 8 + (j 1).val / 512) * 2 + 1, hlt⟩ (0 : Fin 3) = (((j 0).val * 8 + (j 1).val / 512) * 2 + 1) / 16 := e0
  have e1' : win1_2.index ⟨((j 0).val * 8 + (j 1).val / 512) * 2 + 1, hlt⟩ (1 : Fin 3) = (((j 0).val * 8 + (j 1).val / 512) * 2 + 1) / 2 % 8 := e1
  have e2' : win1_2.index ⟨((j 0).val * 8 + (j 1).val / 512) * 2 + 1, hlt⟩ (2 : Fin 3) = 0 := e2
  intro a
  match a with
  | ⟨0, _⟩ =>
    show win1_2.index ⟨((j 0).val * 8 + (j 1).val / 512) * 2 + 1, hlt⟩ (0 : Fin 3) * 1 ≤ (j 0).val ∧ (j 0).val < win1_2.index ⟨((j 0).val * 8 + (j 1).val / 512) * 2 + 1, hlt⟩ (0 : Fin 3) * 1 + 1
    rw [e0']; omega
  | ⟨1, _⟩ =>
    show win1_2.index ⟨((j 0).val * 8 + (j 1).val / 512) * 2 + 1, hlt⟩ (1 : Fin 3) * 512 ≤ (j 1).val ∧ (j 1).val < win1_2.index ⟨((j 0).val * 8 + (j 1).val / 512) * 2 + 1, hlt⟩ (1 : Fin 3) * 512 + 512
    rw [e1']; omega
  | ⟨2, _⟩ =>
    show win1_2.index ⟨((j 0).val * 8 + (j 1).val / 512) * 2 + 1, hlt⟩ (2 : Fin 3) * 512 ≤ (j 2).val ∧ (j 2).val < win1_2.index ⟨((j 0).val * 8 + (j 1).val / 512) * 2 + 1, hlt⟩ (2 : Fin 3) * 512 + 512
    rw [e2']; omega

/-- THE RESULT ARRAY after the launch is the streamed softmax of the arrays it was entered from. -/
theorem out_array (n : Fin 4) (s : Fin 4096) (p : Fin 512) :
    ((dat1 V c).arrAt 2 cfg1.N : S4x4096x512.Idx → EReal) (ix3 n s p) = attnAt V c n s p := by
  rw [(dat1 V c).arrAt_eq_of_cover 2 (attn V c) (fun t hf => flushed_odd V c t ((flush1_2 t).mp hf)) (cover_out)]
  rfl

end Cert.KernelIdeal.Hand

end
-- ==== Proof.Ideal.ProjectValue.lean ====
/-
  What the attention launch is entered from, over the extended reals: the two arrays the projection launch wrote,
  reshaped to [4, 4096, 512]. Entry (n, s, p) of the first is row (n, s) of the activations against column p of the
  query weights, each weight and the bias already multiplied by the attention scale; of the second, the same against
  the value weights and bias. The projection launch's 32 points each write one 512-row band of both arrays; the bands
  tile them; a band's entry is the body's matrix product plus the broadcast bias row, the narrowing casts the identity.
-/
import proofs.«402456_j86346022519567_3_alg».proof.Proof.Ideal.Whole
import proofs.«402456_j86346022519567_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-- The five arguments by coordinates: activations, query weights and bias, value weights and bias. -/
def aX (n : Fin 4) (s : Fin 4096) (h : Fin 2048) : EReal := (m ((c : Thread nD τ).loc main_arg0) : FVec Ideal S4x4096x2048 .f32) (ix3 n s h)
def aWq (h : Fin 2048) (p : Fin 512) : EReal := (m ((c : Thread nD τ).loc main_arg1) : FVec Ideal S2048x512 .f32) (ix2 h p)
def abq (p : Fin 512) : EReal := (m ((c : Thread nD τ).loc main_arg2) : FVec Ideal S512 .f32) (ix1 p)
def aWv (h : Fin 2048) (p : Fin 512) : EReal := (m ((c : Thread nD τ).loc main_arg3) : FVec Ideal S2048x512 .f32) (ix2 h p)
def abv (p : Fin 512) : EReal := (m ((c : Thread nD τ).loc main_arg4) : FVec Ideal S512 .f32) (ix1 p)

/-! ## One projection, entry by entry

Both output arrays are the same function of three arrays: the flattened activations `X` [16384, 2048], a weight
matrix `W` [2048, 512] and a bias row `B` [1, 512]. -/

/-- Row `r` of `X` against column `p` of `W`, plus entry `p` of the bias row. -/
def projAt (X : S16384x2048.Idx → EReal) (W : S2048x512.Idx → EReal) (B : S1x512.Idx → EReal)
    (r : Fin 16384) (p : Fin 512) : EReal :=
  (∑ h : Fin 2048, X (ix2 r h) * W (ix2 h p)) + B (ix2 (0 : Fin 1) p)

/-- The whole [16384, 512] array of them. -/
def projG (X : S16384x2048.Idx → EReal) (W : S2048x512.Idx → EReal) (B : S1x512.Idx → EReal) :
    S16384x512.Idx → EReal :=
  fun i => projAt X W B ⟨(i 0).val, idx2_lt0 i⟩ ⟨(i 1).val, idx2_lt1 i⟩

theorem projG_ix2 (X : S16384x2048.Idx → EReal) (W : S2048x512.Idx → EReal) (B : S1x512.Idx → EReal)
    (r : Fin 16384) (p : Fin 512) : projG X W B (ix2 r p) = projAt X W B r p := rfl

/-- Row `(n, s)` of a [4, 4096, ·] array is row `4096·n + s` of the flattened one. -/
def flatRow (n : Fin 4) (s : Fin 4096) : Fin 16384 :=
  ⟨4096 * n.val + s.val, by have := n.isLt; have := s.isLt; omega⟩

/-! ## The body's arithmetic at an index -/

theorem proj_zero_off : (![0, 0] : Fin 2 → Nat) = fun _ => 0 :=
  funext fun a => match a with | ⟨0, _⟩ => rfl | ⟨1, _⟩ => rfl

/-- The product's operand indices, axis by axis: the left operand's row is the output's row, -/
theorem proj_lhs_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- its column the contracted coordinate; -/
theorem proj_lhs_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- the right operand's row is the contracted coordinate, -/
theorem proj_rhs_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- its column the output's column. -/
theorem proj_rhs_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The matrix product into the zero accumulator, at an entry: the sum over the 2048 contracted coordinates. -/
theorem proj_mm_apply (A : FVec Ideal S512x2048 .bf16) (B : FVec Ideal S2048x512 .bf16) (a p : Fin 512) :
    matmul dot_S512x2048_S2048x512_S512x512_1_0_0_1_n_n none A B (constant (F := Ideal) S512x512 .f32 0x00000000#32) (ix2 a p)
      = ∑ h : Fin 2048, A (ix2 a h) * B (ix2 h p) := by
  show FloatOps.matmul dot_S512x2048_S2048x512_S512x512_1_0_0_1_n_n none A B (constant (F := Ideal) S512x512 .f32 0x00000000#32) (ix2 a p) = _
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 a p) ((contrEquiv1 dot_S512x2048_S2048x512_S512x512_1_0_0_1_n_n 2048 rfl rfl).symm k) = ix2 a k := funext fun ax => Fin.ext (by
    match ax with
    | ⟨0, _⟩ => exact proj_lhs_0 _ _
    | ⟨1, _⟩ => exact (proj_lhs_1 _ _).trans hk)
  have er : dot_S512x2048_S2048x512_S512x512_1_0_0_1_n_n.rhsIdx (ix2 a p) ((contrEquiv1 dot_S512x2048_S2048x512_S512x512_1_0_0_1_n_n 2048 rfl rfl).symm k) = ix2 k p := funext fun ax => Fin.ext (by
    match ax with
    | ⟨0, _⟩ => exact (proj_rhs_0 _ _).trans hk
    | ⟨1, _⟩ => exact proj_rhs_1 _ _)
  rw [el, er]

/-- The bias row broadcast down the 512 rows, at an entry: the row's entry in that column. -/
theorem proj_bias_apply (b : FVec Ideal S1x512 .f32) (a p : Fin 512) :
    broadcastTo S512x512 b broadcasts_S1x512_S512x512 (ix2 a p) = b (ix2 (0 : Fin 1) p) :=
  broadcastTo_1b_ab_apply b broadcasts_S1x512_S512x512 a p

/-- The body's payload at an entry: the band's row against the weights' column, plus the bias. The casts to the
    same shape and the narrowings are the identity. -/
theorem proj_pay2_apply (x0 : FVec Ideal S512x2048 .f32) (x1 : FVec Ideal S2048x512 .bf16) (x2 : FVec Ideal S1x512 .f32)
    (a p : Fin 512) :
    k0_pay2 (F := Ideal) x0 x1 x2 (ix2 a p) = (∑ h : Fin 2048, x0 (ix2 a h) * x1 (ix2 h p)) + x2 (ix2 (0 : Fin 1) p) := by
  unfold k0_pay2 k0_pay1
  simp only [shapeCast_self]
  exact congrArg₂ (fun x y : EReal => x + y) (proj_mm_apply (truncf .bf16 x0 bitsLt_bf16_f32) x1 a p) (proj_bias_apply x2 a p)

/-- The value payload is the same term over its own weights and bias. -/
theorem proj_pay3_apply (x0 : FVec Ideal S512x2048 .f32) (x1 : FVec Ideal S2048x512 .bf16) (x2 : FVec Ideal S1x512 .f32)
    (a p : Fin 512) :
    k0_pay3 (F := Ideal) x0 x1 x2 (ix2 a p) = (∑ h : Fin 2048, x0 (ix2 a h) * x1 (ix2 h p)) + x2 (ix2 (0 : Fin 1) p) :=
  proj_pay2_apply x0 x1 x2 a p

theorem proj_pay3_eq (x0 : FVec Ideal S512x2048 .f32) (x1 : FVec Ideal S2048x512 .bf16) (x2 : FVec Ideal S1x512 .f32) :
    k0_pay3 (F := Ideal) x0 x1 x2 = k0_pay2 (F := Ideal) x0 x1 x2 := rfl

/-- A band's payload is the band of the projection: `x0` rows `512·T …` of `X`, `x1` all of `W`, `x2` all of `B`. -/
theorem proj_point (x0 : FVec Ideal S512x2048 .f32) (x1 : FVec Ideal S2048x512 .bf16) (x2 : FVec Ideal S1x512 .f32)
    (X : S16384x2048.Idx → EReal) (W : S2048x512.Idx → EReal) (B : S1x512.Idx → EReal) (T : Nat)
    (h0 : ∀ (a : Fin 512) (h : Fin 2048) (i : S16384x2048.Idx), (i 0).val = T * 512 + a.val → (i 1).val = h.val → x0 (ix2 a h) = X i)
    (h1 : ∀ i, x1 i = W i) (h2 : ∀ i, x2 i = B i)
    (j : S512x512.Idx) (i : S16384x512.Idx) (hi0 : (i 0).val = T * 512 + (j 0).val) (hi1 : (i 1).val = (j 1).val) :
    k0_pay2 (F := Ideal) x0 x1 x2 j = projG X W B i := by
  obtain ⟨a, p, rfl⟩ : ∃ (a : Fin 512) (p : Fin 512), j = ix2 a p := ⟨j 0, j 1, eq_ix2 j⟩
  obtain ⟨r, q, rfl⟩ : ∃ (r : Fin 16384) (q : Fin 512), i = ix2 r q := ⟨i 0, i 1, eq_ix2 i⟩
  have hqp : q = p := Fin.ext hi1
  rw [hqp, proj_pay2_apply, projG_ix2]
  unfold projAt
  exact congrArg₂ (fun x y : EReal => x + y)
    (Finset.sum_congr rfl fun h _ => congrArg₂ (fun x y : EReal => x * y) (h0 a h (ix2 r h) hi0 rfl) (h1 (ix2 h p)))
    (h2 (ix2 (0 : Fin 1) p))

/-! ## Which block each point reads and writes -/

/-- The input windows' block indices over the grid: the activations' band moves with the point, the weights and
    the bias rows stay at block (0, 0). -/
theorem proj_idx_in : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The output windows' block indices: band `t` of each array at point `t`. -/
theorem proj_idx_out : ∀ t : Fin cfg0.N,
    win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The activations' block at point `t` is rows `512·t …` of the flattened activations. -/
theorem proj_blk0 (V : (c : Dev nD) → (b : Ref sig .tc) → Buf (Elt Ideal) ((c : Thread nD τ).loc b)) (c : Dev nD) (t : Fin cfg0.N) (a : Fin 512) (h : Fin 2048) (i : S16384x2048.Idx)
    (hi0 : (i 0).val = t.val * 512 + a.val) (hi1 : (i 1).val = h.val) :
    iblk0 V c 0 t (ix2 a h) = V c main_v8 i := by
  obtain ⟨e0, e1, -⟩ := proj_idx_in t
  have he : ((cfg0.win 0).blk t).view.emb (ix2 a h) = i := by
    funext ax; apply Fin.ext
    match ax with
    | ⟨0, _⟩ => show win0_0.index t (0 : Fin 2) * 512 + 1 * a.val = (i 0).val; omega
    | ⟨1, _⟩ => show win0_0.index t (1 : Fin 2) * 2048 + 1 * h.val = (i 1).val; omega
  show V c main_v8 (((cfg0.win 0).blk t).view.emb (ix2 a h)) = V c main_v8 i
  exact congrArg (V c main_v8) he

/-- Window 1's block is its whole array at every point. -/
theorem proj_blk1 (V : (c : Dev nD) → (b : Ref sig .tc) → Buf (Elt Ideal) ((c : Thread nD τ).loc b)) (c : Dev nD) (t : Fin cfg0.N) (i : S2048x512.Idx) :
    iblk0 V c 1 t i = V c main_v2 i := by
  obtain ⟨-, -, e0, e1, -⟩ := proj_idx_in t
  have he : ((cfg0.win 1).blk t).view.emb i = i := by
    funext ax; apply Fin.ext
    match ax with
    | ⟨0, _⟩ => show win0_1.index t (0 : Fin 2) * 2048 + 1 * (i 0).val = (i 0).val; omega
    | ⟨1, _⟩ => show win0_1.index t (1 : Fin 2) * 512 + 1 * (i 1).val = (i 1).val; omega
  show V c main_v2 (((cfg0.win 1).blk t).view.emb i) = V c main_v2 i
  exact congrArg (V c main_v2) he

/-- Window 2's block is its whole array at every point. -/
theorem proj_blk2 (V : (c : Dev nD) → (b : Ref sig .tc) → Buf (Elt Ideal) ((c : Thread nD τ).loc b)) (c : Dev nD) (t : Fin cfg0.N) (i : S1x512.Idx) :
    iblk0 V c 2 t i = V c main_v5 i := by
  obtain ⟨-, -, -, -, e0, e1, -⟩ := proj_idx_in t
  have he : ((cfg0.win 2).blk t).view.emb i = i := by
    funext ax; apply Fin.ext
    match ax with
    | ⟨0, _⟩ => show win0_2.index t (0 : Fin 2) * 1 + 1 * (i 0).val = (i 0).val; omega
    | ⟨1, _⟩ => show win0_2.index t (1 : Fin 2) * 512 + 1 * (i 1).val = (i 1).val; omega
  show V c main_v5 (((cfg0.win 2).blk t).view.emb i) = V c main_v5 i
  exact congrArg (V c main_v5) he

/-- Window 3's block is its whole array at every point. -/
theorem proj_blk3 (V : (c : Dev nD) → (b : Ref sig .tc) → Buf (Elt Ideal) ((c : Thread nD τ).loc b)) (c : Dev nD) (t : Fin cfg0.N) (i : S2048x512.Idx) :
    iblk0 V c 3 t i = V c main_v6 i := by
  obtain ⟨-, -, -, -, -, -, e0, e1, -⟩ := proj_idx_in t
  have he : ((cfg0.win 3).blk t).view.emb i = i := by
    funext ax; apply Fin.ext
    match ax with
    | ⟨0, _⟩ => show win0_3.index t (0 : Fin 2) * 2048 + 1 * (i 0).val = (i 0).val; omega
    | ⟨1, _⟩ => show win0_3.index t (1 : Fin 2) * 512 + 1 * (i 1).val = (i 1).val; omega
  show V c main_v6 (((cfg0.win 3).blk t).view.emb i) = V c main_v6 i
  exact congrArg (V c main_v6) he

/-- Window 4's block is its whole array at every point. -/
theorem proj_blk4 (V : (c : Dev nD) → (b : Ref sig .tc) → Buf (Elt Ideal) ((c : Thread nD τ).loc b)) (c : Dev nD) (t : Fin cfg0.N) (i : S1x512.Idx) :
    iblk0 V c 4 t i = V c main_v7 i := by
  obtain ⟨-, -, -, -, -, -, -, -, e0, e1⟩ := proj_idx_in t
  have he : ((cfg0.win 4).blk t).view.emb i = i := by
    funext ax; apply Fin.ext
    match ax with
    | ⟨0, _⟩ => show win0_4.index t (0 : Fin 2) * 1 + 1 * (i 0).val = (i 0).val; omega
    | ⟨1, _⟩ => show win0_4.index t (1 : Fin 2) * 512 + 1 * (i 1).val = (i 1).val; omega
  show V c main_v7 (((cfg0.win 4).blk t).view.emb i) = V c main_v7 i
  exact congrArg (V c main_v7) he

/-! ## From the bands to the two arrays -/

/-- The query block after the body is the body's payload: one store of the whole block, whole loads. -/
theorem proj_out5 (x0 : FVec Ideal S512x2048 .f32) (x1 : FVec Ideal S2048x512 .bf16) (x2 : FVec Ideal S1x512 .f32) :
    out0_5 (F := Ideal) x0 x1 x2 = k0_pay2 (F := Ideal) x0 x1 x2 := by
  unfold out0_5
  rw [View.canon_unit_zero proj_zero_off]
  simp only [View.ld_unit_zero (S := S512x2048) proj_zero_off, View.ld_unit_zero (S := S2048x512) proj_zero_off,
    View.ld_unit_zero (S := S1x512) proj_zero_off]

/-- What point `t` writes back of the query array is its band of the projection of the arrays the launch finds. -/
theorem proj_flushed5 (V : (c : Dev nD) → (b : Ref sig .tc) → Buf (Elt Ideal) ((c : Thread nD τ).loc b)) (c : Dev nD) (t : Fin cfg0.N) :
    (dat0 V c).flushed 5 t
      = ((cfg0.win 5).blk t).view.read (Elt Ideal) (projG (V c main_v8) (V c main_v2) (V c main_v5)) := by
  show (cfg0.win 5).cut (grid0.coords t) ((dat0 V c).after 5 t) = _
  rw [after0_5]
  obtain ⟨e0, e1, -⟩ := proj_idx_out t
  funext j
  show out0_5 (iblk0 V c 0 t) (iblk0 V c 1 t) (iblk0 V c 2 t) j
    = projG (V c main_v8) (V c main_v2) (V c main_v5) (((cfg0.win 5).blk t).view.emb j)
  refine (congrFun (proj_out5 (iblk0 V c 0 t) (iblk0 V c 1 t) (iblk0 V c 2 t)) j).trans ?_
  refine proj_point (iblk0 V c 0 t) (iblk0 V c 1 t) (iblk0 V c 2 t) (V c main_v8) (V c main_v2) (V c main_v5) t.val
    (fun a h i hi0 hi1 => proj_blk0 V c t a h i hi0 hi1) (proj_blk1 V c t) (proj_blk2 V c t) j _ ?_ ?_
  · show win0_5.index t (0 : Fin 2) * 512 + 1 * (j 0).val = t.val * 512 + (j 0).val; omega
  · show win0_5.index t (1 : Fin 2) * 512 + 1 * (j 1).val = (j 1).val; omega

/-- An index of the query array is in point `t`'s block iff each coordinate is in the block's range. -/
theorem proj_mem_blk5 (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v9_0).slice (win0_5.rect t)).set ↔ _
  rw [View.set_slice_whole, Rect.mem_set_unit]
  exact Iff.rfl

/-- The 32 bands tile the query array: row `r` is in the band of point `r / 512`. -/
theorem proj_cover5 (i : S16384x512.Idx) :
    ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 32 := N_0
  have hlt : (i 0).val / 512 < cfg0.N := by rw [hN]; omega
  obtain ⟨t, ht⟩ : ∃ t : Fin cfg0.N, t.val = (i 0).val / 512 := ⟨⟨(i 0).val / 512, hlt⟩, rfl⟩
  obtain ⟨e0, e1, -⟩ := proj_idx_out t
  refine ⟨t, flush0_5 t, ?_⟩
  rw [proj_mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The query array after the launch is the projection of the arrays the launch finds. -/
theorem proj_arr5 (V : (c : Dev nD) → (b : Ref sig .tc) → Buf (Elt Ideal) ((c : Thread nD τ).loc b)) (c : Dev nD) :
    ((dat0 V c).arrAt 5 cfg0.N : S16384x512.Idx → EReal) = projG (V c main_v8) (V c main_v2) (V c main_v5) :=
  (dat0 V c).arrAt_eq_of_cover 5 (projG (V c main_v8) (V c main_v2) (V c main_v5)) (fun t _ => proj_flushed5 V c t) proj_cover5

/-- The value block after the body is the body's payload: one store of the whole block, whole loads. -/
theorem proj_out6 (x0 : FVec Ideal S512x2048 .f32) (x1 : FVec Ideal S2048x512 .bf16) (x2 : FVec Ideal S1x512 .f32) :
    out0_6 (F := Ideal) x0 x1 x2 = k0_pay3 (F := Ideal) x0 x1 x2 := by
  unfold out0_6
  rw [View.canon_unit_zero proj_zero_off]
  simp only [View.ld_unit_zero (S := S512x2048) proj_zero_off, View.ld_unit_zero (S := S2048x512) proj_zero_off,
    View.ld_unit_zero (S := S1x512) proj_zero_off]

/-- What point `t` writes back of the value array is its band of the projection of the arrays the launch finds. -/
theorem proj_flushed6 (V : (c : Dev nD) → (b : Ref sig .tc) → Buf (Elt Ideal) ((c : Thread nD τ).loc b)) (c : Dev nD) (t : Fin cfg0.N) :
    (dat0 V c).flushed 6 t
      = ((cfg0.win 6).blk t).view.read (Elt Ideal) (projG (V c main_v8) (V c main_v6) (V c main_v7)) := by
  show (cfg0.win 6).cut (grid0.coords t) ((dat0 V c).after 6 t) = _
  rw [after0_6]
  obtain ⟨-, -, e0, e1⟩ := proj_idx_out t
  funext j
  show out0_6 (iblk0 V c 0 t) (iblk0 V c 3 t) (iblk0 V c 4 t) j
    = projG (V c main_v8) (V c main_v6) (V c main_v7) (((cfg0.win 6).blk t).view.emb j)
  refine (congrFun ((proj_out6 (iblk0 V c 0 t) (iblk0 V c 3 t) (iblk0 V c 4 t)).trans
    (proj_pay3_eq (iblk0 V c 0 t) (iblk0 V c 3 t) (iblk0 V c 4 t))) j).trans ?_
  refine proj_point (iblk0 V c 0 t) (iblk0 V c 3 t) (iblk0 V c 4 t) (V c main_v8) (V c main_v6) (V c main_v7) t.val
    (fun a h i hi0 hi1 => proj_blk0 V c t a h i hi0 hi1) (proj_blk3 V c t) (proj_blk4 V c t) j _ ?_ ?_
  · show win0_6.index t (0 : Fin 2) * 512 + 1 * (j 0).val = t.val * 512 + (j 0).val; omega
  · show win0_6.index t (1 : Fin 2) * 512 + 1 * (j 1).val = (j 1).val; omega

/-- An index of the value array is in point `t`'s block iff each coordinate is in the block's range. -/
theorem proj_mem_blk6 (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v9_1).slice (win0_6.rect t)).set ↔ _
  rw [View.set_slice_whole, Rect.mem_set_unit]
  exact Iff.rfl

/-- The 32 bands tile the value array: row `r` is in the band of point `r / 512`. -/
theorem proj_cover6 (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 32 := N_0
  have hlt : (i 0).val / 512 < cfg0.N := by rw [hN]; omega
  obtain ⟨t, ht⟩ : ∃ t : Fin cfg0.N, t.val = (i 0).val / 512 := ⟨⟨(i 0).val / 512, hlt⟩, rfl⟩
  obtain ⟨-, -, e0, e1⟩ := proj_idx_out t
  refine ⟨t, flush0_6 t, ?_⟩
  rw [proj_mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The value array after the launch is the projection of the arrays the launch finds. -/
theorem proj_arr6 (V : (c : Dev nD) → (b : Ref sig .tc) → Buf (Elt Ideal) ((c : Thread nD τ).loc b)) (c : Dev nD) :
    ((dat0 V c).arrAt 6 cfg0.N : S16384x512.Idx → EReal) = projG (V c main_v8) (V c main_v6) (V c main_v7) :=
  (dat0 V c).arrAt_eq_of_cover 6 (projG (V c main_v8) (V c main_v6) (V c main_v7)) (fun t _ => proj_flushed6 V c t) proj_cover6

/-! ## The host operations around the launch, at an index -/

/-- The [16384, 512] array read as [4, 4096, 512]: entry (n, s, p) is entry (4096·n + s, p). -/
theorem proj_unflatten (Y : S16384x512.Idx → EReal) (n : Fin 4) (s : Fin 4096) (p : Fin 512) :
    shapeCast S4x4096x512 Y shapeCasts_S16384x512_S4x4096x512 (ix3 n s p) = Y (ix2 (flatRow n s) p) :=
  shapeCast_apply Y shapeCasts_S16384x512_S4x4096x512 (ix3 n s p) (ix2 (flatRow n s) p) (by
    rw [Shape.rowMajor_val_two, Shape.rowMajor_val_three]
    show (4096 * n.val + s.val) * 512 + p.val = (n.val * 4096 + s.val) * 512 + p.val
    omega)

/-- The flattened activations: row `4096·n + s` is row (n, s) of argument 0. -/
theorem proj_U1_v8 (n : Fin 4) (s : Fin 4096) (h : Fin 2048) :
    (U1 m ρ c main_v8 : S16384x2048.Idx → EReal) (ix2 (flatRow n s) h) = aX m c n s h := by
  have e : (U1 m ρ c main_v8 : S16384x2048.Idx → EReal)
      = shapeCast S16384x2048 (m ((c : Thread nD τ).loc main_arg0) : FVec Ideal S4x4096x2048 .f32) shapeCasts_S4x4096x2048_S16384x2048 := by
    show StableHlo.after hostOps0 (W0 m ρ c) (Proc.devRef .tc main_v8) = _
    dsimp only [hostOps0]
    after_results
    rfl
  refine (congrFun e _).trans ?_
  exact shapeCast_apply _ _ (ix2 (flatRow n s) h) (ix3 n s h) (by
    rw [Shape.rowMajor_val_three, Shape.rowMajor_val_two]
    show (n.val * 4096 + s.val) * 2048 + h.val = (4096 * n.val + s.val) * 2048 + h.val
    omega)

/-- The query weights the launch reads: argument 1 times the scale, the narrowing the identity. -/
theorem proj_U1_v2 (h : Fin 2048) (p : Fin 512) :
    (U1 m ρ c main_v2 : S2048x512.Idx → EReal) (ix2 h p) = aWq m c h p * Spec.sc := by
  have e : (U1 m ρ c main_v2 : S2048x512.Idx → EReal)
      = truncf (F := Ideal) .bf16 (mulf (F := Ideal) (φ := .f32) (m ((c : Thread nD τ).loc main_arg1) : FVec Ideal S2048x512 .f32) ((broadcastInDim S2048x512 ![] bcast_S_S2048x512 : (⟨S_, .f32⟩ : BufTy).Contents (Elt Ideal) → (⟨S2048x512, .f32⟩ : BufTy).Contents (Elt Ideal)) (constant (F := Ideal) S_ .f32 0x3E3504F3#32))) bitsLt_bf16_f32 := by
    show StableHlo.after hostOps0 (W0 m ρ c) (Proc.devRef .tc main_v2) = _
    dsimp only [hostOps0]
    after_results
  exact (congrFun e _).trans rfl

/-- The query bias row the launch reads: argument 2 times the scale, as a [1, 512] row. -/
theorem proj_U1_v5 (p : Fin 512) :
    (U1 m ρ c main_v5 : S1x512.Idx → EReal) (ix2 (0 : Fin 1) p) = abq m c p * Spec.sc := by
  have e : (U1 m ρ c main_v5 : S1x512.Idx → EReal)
      = shapeCast S1x512 (mulf (F := Ideal) (φ := .f32) (m ((c : Thread nD τ).loc main_arg2) : FVec Ideal S512 .f32) ((broadcastInDim S512 ![] bcast_S_S512 : (⟨S_, .f32⟩ : BufTy).Contents (Elt Ideal) → (⟨S512, .f32⟩ : BufTy).Contents (Elt Ideal)) (constant (F := Ideal) S_ .f32 0x3E3504F3#32))) shapeCasts_S512_S1x512 := by
    show StableHlo.after hostOps0 (W0 m ρ c) (Proc.devRef .tc main_v5) = _
    dsimp only [hostOps0]
    after_results
    rfl
  refine (congrFun e _).trans ?_
  refine (shapeCast_a_1a_apply _ shapeCasts_S512_S1x512 (0 : Fin 1) p).trans ?_
  rfl

/-- The value weights the launch reads: argument 3, the narrowing the identity. -/
theorem proj_U1_v6 (h : Fin 2048) (p : Fin 512) :
    (U1 m ρ c main_v6 : S2048x512.Idx → EReal) (ix2 h p) = aWv m c h p := by
  have e : (U1 m ρ c main_v6 : S2048x512.Idx → EReal)
      = truncf (F := Ideal) .bf16 (m ((c : Thread nD τ).loc main_arg3) : FVec Ideal S2048x512 .f32) bitsLt_bf16_f32 := by
    show StableHlo.after hostOps0 (W0 m ρ c) (Proc.devRef .tc main_v6) = _
    dsimp only [hostOps0]
    after_results
  exact (congrFun e _).trans rfl

/-- The value bias row the launch reads: argument 4 as a [1, 512] row. -/
theorem proj_U1_v7 (p : Fin 512) :
    (U1 m ρ c main_v7 : S1x512.Idx → EReal) (ix2 (0 : Fin 1) p) = abv m c p := by
  have e : (U1 m ρ c main_v7 : S1x512.Idx → EReal)
      = shapeCast S1x512 (m ((c : Thread nD τ).loc main_arg4) : FVec Ideal S512 .f32) shapeCasts_S512_S1x512 := by
    show StableHlo.after hostOps0 (W0 m ρ c) (Proc.devRef .tc main_v7) = _
    dsimp only [hostOps0]
    after_results
    rfl
  refine (congrFun e _).trans ?_
  exact shapeCast_a_1a_apply _ shapeCasts_S512_S1x512 (0 : Fin 1) p

/-- After the launch the query array holds the projection of what the first host stretch left. -/
theorem proj_W2_v9_0 : (W2 m ρ c (Proc.devRef .tc main_v9_0) : S16384x512.Idx → EReal)
    = projG (U1 m ρ c main_v8) (U1 m ρ c main_v2) (U1 m ρ c main_v5) :=
  (W2_arr m ρ c 5).trans (proj_arr5 (U1 m ρ) c)

/-- and the value array likewise. -/
theorem proj_W2_v9_1 : (W2 m ρ c (Proc.devRef .tc main_v9_1) : S16384x512.Idx → EReal)
    = projG (U1 m ρ c main_v8) (U1 m ρ c main_v6) (U1 m ρ c main_v7) :=
  (W2_arr m ρ c 6).trans (proj_arr6 (U1 m ρ) c)

/-- The two reshapes after the launch. -/
theorem proj_U3_v10 : (U3 m ρ c main_v10 : S4x4096x512.Idx → EReal)
    = shapeCast S4x4096x512 (W2 m ρ c (Proc.devRef .tc main_v9_0) : S16384x512.Idx → EReal) shapeCasts_S16384x512_S4x4096x512 := by
  show StableHlo.after hostOps1 (W2 m ρ c) (Proc.devRef .tc main_v10) = _
  dsimp only [hostOps1]
  after_results
  rfl

theorem proj_U3_v11 : (U3 m ρ c main_v11 : S4x4096x512.Idx → EReal)
    = shapeCast S4x4096x512 (W2 m ρ c (Proc.devRef .tc main_v9_1) : S16384x512.Idx → EReal) shapeCasts_S16384x512_S4x4096x512 := by
  show StableHlo.after hostOps1 (W2 m ρ c) (Proc.devRef .tc main_v11) = _
  dsimp only [hostOps1]
  after_results
  rfl

/-! ## The two arrays the attention launch reads -/

/-- The scaled queries the attention launch reads. -/
theorem q_array (n : Fin 4) (s : Fin 4096) (p : Fin 512) :
    (U3 m ρ c main_v10 : FVec Ideal S4x4096x512 .bf16) (ix3 n s p)
      = Spec.lin (aX m c) (fun h p => aWq m c h p * Spec.sc) (fun p => abq m c p * Spec.sc) n s p := by
  have e : (U3 m ρ c main_v10 : S4x4096x512.Idx → EReal)
      = shapeCast S4x4096x512 (projG (U1 m ρ c main_v8) (U1 m ρ c main_v2) (U1 m ρ c main_v5)) shapeCasts_S16384x512_S4x4096x512 :=
    (proj_U3_v10 m ρ c).trans
      (congrArg (fun Y : S16384x512.Idx → EReal => shapeCast S4x4096x512 Y shapeCasts_S16384x512_S4x4096x512) (proj_W2_v9_0 m ρ c))
  refine (congrFun e (ix3 n s p)).trans ?_
  refine (proj_unflatten _ n s p).trans ?_
  rw [projG_ix2]
  unfold projAt Spec.lin
  exact congrArg₂ (fun x y : EReal => x + y)
    (Finset.sum_congr rfl fun h _ => congrArg₂ (fun x y : EReal => x * y) (proj_U1_v8 m ρ c n s h) (proj_U1_v2 m ρ c h p))
    (proj_U1_v5 m ρ c p)

/-- The values (also the keys) the attention launch reads. -/
theorem v_array (n : Fin 4) (s : Fin 4096) (p : Fin 512) :
    (U3 m ρ c main_v11 : FVec Ideal S4x4096x512 .bf16) (ix3 n s p)
      = Spec.lin (aX m c) (aWv m c) (abv m c) n s p := by
  have e : (U3 m ρ c main_v11 : S4x4096x512.Idx → EReal)
      = shapeCast S4x4096x512 (projG (U1 m ρ c main_v8) (U1 m ρ c main_v6) (U1 m ρ c main_v7)) shapeCasts_S16384x512_S4x4096x512 :=
    (proj_U3_v11 m ρ c).trans
      (congrArg (fun Y : S16384x512.Idx → EReal => shapeCast S4x4096x512 Y shapeCasts_S16384x512_S4x4096x512) (proj_W2_v9_1 m ρ c))
  refine (congrFun e (ix3 n s p)).trans ?_
  refine (proj_unflatten _ n s p).trans ?_
  rw [projG_ix2]
  unfold projAt Spec.lin
  exact congrArg₂ (fun x y : EReal => x + y)
    (Finset.sum_congr rfl fun h _ => congrArg₂ (fun x y : EReal => x * y) (proj_U1_v8 m ρ c n s h) (proj_U1_v6 m ρ c h p))
    (proj_U1_v7 m ρ c p)

end Cert.KernelIdeal.Hand

end
-- ==== Proof.RefAt.lean ====
/-
  The reference's result read at one entry, over the extended reals: entry (n, i, p) is the plain softmax row —
  scores of query row (n, i) against all 4096 keys of batch n, each the contraction of the two linear layers' rows
  times the attention scale — contracted with column p of the values.
-/
import proofs.«402456_j86346022519567_3_alg».proof.Proof.Gen.ReferenceIdeal.Read
import proofs.«402456_j86346022519567_3_alg».proof.Proof.Spec
import Idealize.ShloMosaic.Lib.ValueIdx
import Idealize.ShloMosaic.PureOps.Ideal.Laws

set_option maxRecDepth 16384

noncomputable section

open scoped BigOperators

namespace Cert.ReferenceIdeal.AtIndex

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (c : Dev nD)

open Cert.ReferenceIdeal.Read

/-! ## The composed index maps at an index given by coordinates -/

private theorem lidx_v0 (n : Fin 4) (s : Fin 4096) (p : Fin 512) (h : Fin 2048) : lidx_main_v0 (ix3 n s p) h = ix3 n s h := funext fun a => Fin.ext (by match a with | ⟨0, _⟩ => rfl | ⟨1, _⟩ => rfl | ⟨2, _⟩ => rfl)
private theorem ridx_v0 (n : Fin 4) (s : Fin 4096) (p : Fin 512) (h : Fin 2048) : ridx_main_v0 (ix3 n s p) h = ix2 h p := funext fun a => Fin.ext (by match a with | ⟨0, _⟩ => rfl | ⟨1, _⟩ => rfl)
private theorem idx_v2 (n : Fin 4) (s : Fin 4096) (p : Fin 512) : idx_main_v1 (idx_main_v2 (ix3 n s p)) = ix1 p := funext fun a => Fin.ext (by match a with | ⟨0, _⟩ => rfl)
private theorem lidx_v4 (n : Fin 4) (s : Fin 4096) (p : Fin 512) (h : Fin 2048) : lidx_main_v4 (ix3 n s p) h = ix3 n s h := funext fun a => Fin.ext (by match a with | ⟨0, _⟩ => rfl | ⟨1, _⟩ => rfl | ⟨2, _⟩ => rfl)
private theorem ridx_v4 (n : Fin 4) (s : Fin 4096) (p : Fin 512) (h : Fin 2048) : ridx_main_v4 (ix3 n s p) h = ix2 h p := funext fun a => Fin.ext (by match a with | ⟨0, _⟩ => rfl | ⟨1, _⟩ => rfl)
private theorem idx_v6 (n : Fin 4) (s : Fin 4096) (p : Fin 512) : idx_main_v5 (idx_main_v6 (ix3 n s p)) = ix1 p := funext fun a => Fin.ext (by match a with | ⟨0, _⟩ => rfl)
private theorem lidx_v8 (n : Fin 4) (i k : Fin 4096) (q : Fin 512) : lidx_main_v8 (ix3 n i k) q = ix3 n i q := funext fun a => Fin.ext (by match a with | ⟨0, _⟩ => rfl | ⟨1, _⟩ => rfl | ⟨2, _⟩ => rfl)
private theorem ridx_v8 (n : Fin 4) (i k : Fin 4096) (q : Fin 512) : ridx_main_v8 (ix3 n i k) q = ix3 n k q := funext fun a => Fin.ext (by match a with | ⟨0, _⟩ => rfl | ⟨1, _⟩ => rfl | ⟨2, _⟩ => rfl)
private theorem idx_v15 (n : Fin 4) (i k : Fin 4096) : idx_main_v14 (idx_main_v15 (ix3 n i k)) = ix2 n i := funext fun a => Fin.ext (by match a with | ⟨0, _⟩ => rfl | ⟨1, _⟩ => rfl)
private theorem idx_v18 (n : Fin 4) (i j : Fin 4096) : idx_main_v18 (ix2 n i) j = ix3 n i j := funext fun a => Fin.ext (by match a with | ⟨0, _⟩ => rfl | ⟨1, _⟩ => rfl | ⟨2, _⟩ => rfl)
private theorem idx_v20 (n : Fin 4) (i k : Fin 4096) : idx_main_v19 (idx_main_v20 (ix3 n i k)) = ix2 n i := funext fun a => Fin.ext (by match a with | ⟨0, _⟩ => rfl | ⟨1, _⟩ => rfl)
private theorem lidx_v22 (n : Fin 4) (i : Fin 4096) (p : Fin 512) (k : Fin 4096) : lidx_main_v22 (ix3 n i p) k = ix3 n i k := funext fun a => Fin.ext (by match a with | ⟨0, _⟩ => rfl | ⟨1, _⟩ => rfl | ⟨2, _⟩ => rfl)
private theorem ridx_v22 (n : Fin 4) (i : Fin 4096) (p : Fin 512) (k : Fin 4096) : ridx_main_v22 (ix3 n i p) k = ix3 n k p := funext fun a => Fin.ext (by match a with | ⟨0, _⟩ => rfl | ⟨1, _⟩ => rfl | ⟨2, _⟩ => rfl)

/-- The binary32 word of −∞ is the bottom of the extended reals. -/
private theorem ofBits_ninf : Ideal.ofBits .f32 0xFF800000#32 = (⊥ : EReal) := by simp [Ideal.ofBits, Ideal.ieee]

/-- Row (n, i) of a [4, 4096, 4096] array with a coordinate put back on the last axis is entry (n, i, that coordinate). -/
private theorem lift_row (h : S4x4096x4096.Reduces [2] S4x4096) (n : Fin 4) (i : Fin 4096) (k : Fin (S4x4096x4096.size 2)) :
    h.lift (ix2 n i) k = ix3 n i (⟨k.val, k.isLt⟩ : Fin 4096) := funext fun a => Fin.ext (by match a with | ⟨0, _⟩ => rfl | ⟨1, _⟩ => rfl | ⟨2, _⟩ => rfl)

/-! ## The stages, each read at an index given by coordinates -/

/-- The query layer: row (n, s) of the activations against column p of the weights, plus the bias. -/
theorem v3_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (n : Fin 4) (s : Fin 4096) (p : Fin 512) :
    val_main_v3 (F := Ideal) x0 x1 x2 (ix3 n s p) = (∑ h : Fin 2048, x0 (ix3 n s h) * x1 (ix2 h p)) + x2 (ix1 p) := by
  rewrite [val_main_v3_apply, val_main_v0_apply, val_main_v2_apply, val_main_v1_apply, idx_v2 n s p, Ideal.addf_def]
  exact congrArg (fun t => t + x2 (ix1 p)) (Finset.sum_congr rfl fun h _ => by rw [lidx_v0, ridx_v0])

/-- The value layer, likewise. -/
theorem v7_at (x0 : (⟨S4x4096x2048, .f32⟩ : BufTy).Contents (Elt Ideal)) (x3 : (⟨S2048x512, .f32⟩ : BufTy).Contents (Elt Ideal)) (x4 : (⟨S512, .f32⟩ : BufTy).Contents (Elt Ideal)) (n : Fin 4) (s : Fin 4096) (p : Fin 512) :
    val_main_v7 (F := Ideal) x0 x3 x4 (ix3 n s p) = (∑ h : Fin 2048, x0 (ix3 n s h) * x3 (ix2 h p)) + x4 (ix1 p) := by
  rewrite [val_main_v7_apply, val_main_v4_apply, val_main_v6_apply, val_main_v5_apply, idx_v6 n s p, Ideal.addf_def]
  exact congrArg (fun t => t + x4 (ix1 p)) (Finset.sum_congr rfl fun h _ => by rw [lidx_v4, ridx_v4])

/-- The scaled score of query row (n, i) against key k. -/
theorem v10_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (x3 : (⟨S2048x512, .f32⟩ : BufTy).Contents (Elt Ideal)) (x4 : (⟨S512, .f32⟩ : BufTy).Contents (Elt Ideal)) (n : Fin 4) (i k : Fin 4096) :
    val_main_v10 (F := Ideal) x0 x1 x2 x3 x4 (ix3 n i k)
      = (∑ q : Fin 512, val_main_v3 (F := Ideal) x0 x1 x2 (ix3 n i q) * val_main_v7 (F := Ideal) x0 x3 x4 (ix3 n k q))
          * Ideal.ofBits .f32 0x3E3504F3#32 := by
  rewrite [val_main_v10_apply, val_main_v8_apply, val_main_v9_apply, val_main_cst_apply, Ideal.mulf_def, Ideal.ofBits_def]
  exact congrArg (fun t => t * Ideal.ofBits .f32 0x3E3504F3#32) (Finset.sum_congr rfl fun q _ => by rw [lidx_v8, ridx_v8])

/-- The row maximum: the fold of max from −∞ over the 4096 keys. -/
theorem v11_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (x3 : (⟨S2048x512, .f32⟩ : BufTy).Contents (Elt Ideal)) (x4 : (⟨S512, .f32⟩ : BufTy).Contents (Elt Ideal)) (n : Fin 4) (i : Fin 4096) :
    val_main_v11 (F := Ideal) x0 x1 x2 x3 x4 (ix2 n i)
      = (Finset.univ : Finset (Fin 4096)).fold max (⊥ : EReal) (fun k => val_main_v10 (F := Ideal) x0 x1 x2 x3 x4 (ix3 n i k)) := by
  unfold val_main_v11
  generalize val_main_v10 (F := Ideal) x0 x1 x2 x3 x4 = y
  have h : S4x4096x4096.Reduces [2] S4x4096 := by decide
  refine (Host.reduce_eq_fold_single (FloatOps.maximumf (F := Ideal) (φ := .f32)) y (val_main_cst_0 (F := Ideal))
    reducesTo_S4x4096x4096_S4x4096_d2 h h_S_ (ix2 n i)).trans ?_
  have hb : (val_main_cst_0 (F := Ideal)) (Shape.Idx.first h_S_) = (⊥ : EReal) := by
    rewrite [val_main_cst_0_apply, Ideal.ofBits_def]; exact ofBits_ninf
  have hf : (y ∘ h.lift (ix2 n i)) = fun k : Fin 4096 => y (ix3 n i k) := funext fun k => congrArg y (lift_row h n i k)
  rewrite [hb]
  exact congrArg (fun f => Finset.fold max (⊥ : EReal) f (Finset.univ : Finset (Fin 4096))) hf

/-- … joined once more with −∞, as the program does. -/
theorem v13_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (x3 : (⟨S2048x512, .f32⟩ : BufTy).Contents (Elt Ideal)) (x4 : (⟨S512, .f32⟩ : BufTy).Contents (Elt Ideal)) (n : Fin 4) (i : Fin 4096) :
    val_main_v13 (F := Ideal) x0 x1 x2 x3 x4 (ix2 n i)
      = max (⊥ : EReal) ((Finset.univ : Finset (Fin 4096)).fold max (⊥ : EReal) (fun k => val_main_v10 (F := Ideal) x0 x1 x2 x3 x4 (ix3 n i k))) := by
  rw [val_main_v13_apply, val_main_v12_apply, val_main_cst_1_apply, v11_at, Ideal.maximumf_def, Ideal.ofBits_def, ofBits_ninf]

/-- The exponential of a score less its row's maximum. -/
theorem v17_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (x3 : (⟨S2048x512, .f32⟩ : BufTy).Contents (Elt Ideal)) (x4 : (⟨S512, .f32⟩ : BufTy).Contents (Elt Ideal)) (n : Fin 4) (i k : Fin 4096) :
    val_main_v17 (F := Ideal) x0 x1 x2 x3 x4 (ix3 n i k) = Ideal.exp (val_main_v10 (F := Ideal) x0 x1 x2 x3 x4 (ix3 n i k) - val_main_v13 (F := Ideal) x0 x1 x2 x3 x4 (ix2 n i)) := by
  rw [val_main_v17_apply, val_main_v16_apply, val_main_v15_apply, val_main_v14_apply, idx_v15 n i k, Ideal.hostUnary_exp_def,
    Ideal.subf_def]

/-- The row's denominator: zero plus the sum of the exponentials over the 4096 keys. -/
theorem v18_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (x3 : (⟨S2048x512, .f32⟩ : BufTy).Contents (Elt Ideal)) (x4 : (⟨S512, .f32⟩ : BufTy).Contents (Elt Ideal)) (n : Fin 4) (i : Fin 4096) :
    val_main_v18 (F := Ideal) x0 x1 x2 x3 x4 (ix2 n i) = 0 + ∑ j : Fin 4096, val_main_v17 (F := Ideal) x0 x1 x2 x3 x4 (ix3 n i j) := by
  rewrite [val_main_v18_apply, val_main_cst_2_apply, Ideal.ofBits_def, Ideal.ofBits_zero_f32]
  exact congrArg (fun t => (0 : EReal) + t)
    (Finset.sum_congr rfl fun j _ => congrArg (val_main_v17 (F := Ideal) x0 x1 x2 x3 x4) (idx_v18 n i j))

/-- The normalised weight of key k in row (n, i). -/
theorem v21_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (x3 : (⟨S2048x512, .f32⟩ : BufTy).Contents (Elt Ideal)) (x4 : (⟨S512, .f32⟩ : BufTy).Contents (Elt Ideal)) (n : Fin 4) (i k : Fin 4096) :
    val_main_v21 (F := Ideal) x0 x1 x2 x3 x4 (ix3 n i k) = Ideal.div (val_main_v17 (F := Ideal) x0 x1 x2 x3 x4 (ix3 n i k)) (val_main_v18 (F := Ideal) x0 x1 x2 x3 x4 (ix2 n i)) := by
  rw [val_main_v21_apply, val_main_v20_apply, val_main_v19_apply, idx_v20 n i k, Ideal.hostDivf_def]

/-- The result: the row's weights contracted with column p of the values. -/
theorem v22_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (x3 : (⟨S2048x512, .f32⟩ : BufTy).Contents (Elt Ideal)) (x4 : (⟨S512, .f32⟩ : BufTy).Contents (Elt Ideal)) (n : Fin 4) (i : Fin 4096) (p : Fin 512) :
    val_main_v22 (F := Ideal) x0 x1 x2 x3 x4 (ix3 n i p)
      = ∑ k : Fin 4096, val_main_v21 (F := Ideal) x0 x1 x2 x3 x4 (ix3 n i k) * val_main_v7 (F := Ideal) x0 x3 x4 (ix3 n k p) := by
  rewrite [val_main_v22_apply]
  exact Finset.sum_congr rfl fun k _ => by rw [lidx_v22, ridx_v22]

/-- All stages together: over any five arrays, entry (n, i, p) of the last stage is the plain softmax row of the scaled
    scores of query row (n, i) contracted with column p of the value layer. -/
theorem plain_at (x0 : (⟨S4x4096x2048, .f32⟩ : BufTy).Contents (Elt Ideal)) (x1 : (⟨S2048x512, .f32⟩ : BufTy).Contents (Elt Ideal)) (x2 : (⟨S512, .f32⟩ : BufTy).Contents (Elt Ideal)) (x3 : (⟨S2048x512, .f32⟩ : BufTy).Contents (Elt Ideal)) (x4 : (⟨S512, .f32⟩ : BufTy).Contents (Elt Ideal)) (n : Fin 4) (i : Fin 4096) (p : Fin 512) :
    val_main_v22 (F := Ideal) x0 x1 x2 x3 x4 (ix3 n i p)
      = Spec.plain
          (fun k => (∑ p' : Fin 512, Spec.lin (fun n s h => x0 (ix3 n s h)) (fun h p => x1 (ix2 h p)) (fun p => x2 (ix1 p)) n i p' * Spec.lin (fun n s h => x0 (ix3 n s h)) (fun h p => x3 (ix2 h p)) (fun p => x4 (ix1 p)) n k p') * Spec.sc)
          (fun k => Spec.lin (fun n s h => x0 (ix3 n s h)) (fun h p => x3 (ix2 h p)) (fun p => x4 (ix1 p)) n k p) := by
  rewrite [v22_at]
  simp only [v21_at, v18_at, v17_at, v13_at, v10_at, v3_at, v7_at]
  simp only [Spec.plain, Spec.lin, Spec.sc]

/-- The five arguments by coordinates. -/
def rX (n : Fin 4) (s : Fin 4096) (h : Fin 2048) : EReal := (m ((c.tc : Thread nD τ).loc main_arg0) : FVec Ideal S4x4096x2048 .f32) (ix3 n s h)
def rWq (h : Fin 2048) (p : Fin 512) : EReal := (m ((c.tc : Thread nD τ).loc main_arg1) : FVec Ideal S2048x512 .f32) (ix2 h p)
def rbq (p : Fin 512) : EReal := (m ((c.tc : Thread nD τ).loc main_arg2) : FVec Ideal S512 .f32) (ix1 p)
def rWv (h : Fin 2048) (p : Fin 512) : EReal := (m ((c.tc : Thread nD τ).loc main_arg3) : FVec Ideal S2048x512 .f32) (ix2 h p)
def rbv (p : Fin 512) : EReal := (m ((c.tc : Thread nD τ).loc main_arg4) : FVec Ideal S512 .f32) (ix1 p)

/-- The reference's result at entry (n, i, p). -/
theorem result_at (n : Fin 4) (i : Fin 4096) (p : Fin 512) :
    (Cert.ReferenceIdeal.Value.res_out0 (F := Ideal) m c : FVec Ideal S4x4096x512 .f32) (ix3 n i p)
      = Spec.plain
          (fun k => (∑ p' : Fin 512, Spec.lin (rX m c) (rWq m c) (rbq m c) n i p' * Spec.lin (rX m c) (rWv m c) (rbv m c) n k p') * Spec.sc)
          (fun k => Spec.lin (rX m c) (rWv m c) (rbv m c) n k p) := by
  exact (congrFun (val_main_v22_eq (F := Ideal) m c) (ix3 n i p)).trans
    (plain_at (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) n i p)

end Cert.ReferenceIdeal.AtIndex

end
-- ==== Proof.Finite.lean ====
/-
  The precondition read: if every argument entry has absolute value below +∞, every argument entry is a real number.
  The printed predicate is the conjunction, over the five arguments, of "all entries satisfy |x| < +∞"; an extended
  real whose absolute value is below +∞ is neither infinity.
-/
import proofs.«402456_j86346022519567_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Decode

open Cert.Pre_finite_inputs Idealize.ShloMosaic

/-- The scalar shape has one index. -/
instance subsingleton_idx : Subsingleton S_.Idx := ⟨fun a b => funext fun d => d.elim0⟩

/-- A one-bit word made from a Boolean is 1 only when the Boolean is true. -/
private theorem ofBool_eq_one {b : Bool} (h : BitVec.ofBool b = 1#1) : b = true := by
  revert h; cases b <;> decide

/-- The ordered "less than" of two extended reals is 1 only when the first is below the second. -/
private theorem lt_of_cmp_olt {a b : EReal} (h : Ideal.cmp .olt a b = 1#1) : a < b :=
  of_decide_eq_true (ofBool_eq_one h)

/-- An extended real whose absolute value max x (-x) is below +∞ is neither -∞ nor +∞: it is a real. -/
private theorem real_of_max_neg_lt_top (x : EReal) (h : max x (-x) < ⊤) : ∃ r : ℝ, x = (r : EReal) := by
  induction x using EReal.rec with
  | bot => exact absurd h (by simp)
  | top => exact absurd h (by simp)
  | coe r => exact ⟨r, rfl⟩

/-- One element: the printed test |x| < +∞, the bound being the word 0x7F800000 read as +∞, holds only at a real. -/
private theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  exact real_of_max_neg_lt_top x (lt_of_cmp_olt h)

/-- One argument: if the conjunction over all entries of |x| < +∞ is 1, every entry is a real. -/
private theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf (F := Ideal) .olt (Host.absf (F := Ideal) a)
          (broadcastInDim s ![] hb (constant (F := Ideal) S_ .f32 0x7F800000#32)))
        (constantI S_ 1 1#1) hr hu ValueIdx.ix0 = 1#1) (i : s.Idx) : ∃ r : ℝ, a i = (r : EReal) := by
  have hi := Host.reduce_andi_all _ _ hr hu _ e i
  exact real_of_abs_lt_inf (a i) hi

variable [Cert.Pre_finite_inputs.Facts]

/-- Under the precondition every entry of every argument is (the coercion of) a real. -/
theorem real_of_pre (a0 : FVec Ideal S4x4096x2048 .f32) (a1 : FVec Ideal S2048x512 .f32) (a2 : FVec Ideal S512 .f32)
    (a3 : FVec Ideal S2048x512 .f32) (a4 : FVec Ideal S512 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have hv := congrFun h ValueIdx.ix0
  dsimp only [fn, fn_part1, Idealize.ShloMosaic.andi] at hv
  obtain ⟨h0123, h4⟩ := IntOp.andi_eq_one.1 hv
  obtain ⟨h012, h3⟩ := IntOp.andi_eq_one.1 h0123
  obtain ⟨h01, h2⟩ := IntOp.andi_eq_one.1 h012
  obtain ⟨h0, h1⟩ := IntOp.andi_eq_one.1 h01
  exact ⟨real_of_all a0 _ _ _ h0, real_of_all a1 _ _ _ h1, real_of_all a2 _ _ _ h2, real_of_all a3 _ _ _ h3,
    real_of_all a4 _ _ _ h4⟩

end Cert.Pre_finite_inputs.Decode

end
-- ==== Proof.RowBridge.lean ====
/-
  The two programs' rows, from real data, are one number. The kernel scales the query weights and bias by `c` before
  the linear layer and never scales the scores; the reference scales each score by `c`. With real data the two scores
  agree (`Spec.score_scale`), both are real, the values are real, and the streamed row is the plain row
  (`Spec.online_eq_plain`).
-/
import proofs.«402456_j86346022519567_3_alg».proof.Proof.Spec

noncomputable section

open scoped BigOperators

namespace Cert.Spec

theorem row_bridge (X : Fin 4 → Fin 4096 → Fin 2048 → ℝ) (Wq Wv : Fin 2048 → Fin 512 → ℝ) (bq bv : Fin 512 → ℝ) (c : ℝ)
    (n : Fin 4) (s : Fin 4096) (p : Fin 512) :
    online
        (fun k => ∑ p' : Fin 512,
          lin (fun n s h => ((X n s h : ℝ) : EReal)) (fun h p => ((Wq h p : ℝ) : EReal) * (c : EReal)) (fun p => ((bq p : ℝ) : EReal) * (c : EReal)) n s p'
            * lin (fun n s h => ((X n s h : ℝ) : EReal)) (fun h p => ((Wv h p : ℝ) : EReal)) (fun p => ((bv p : ℝ) : EReal)) n (lo k) p')
        (fun k => lin (fun n s h => ((X n s h : ℝ) : EReal)) (fun h p => ((Wv h p : ℝ) : EReal)) (fun p => ((bv p : ℝ) : EReal)) n (lo k) p)
        (fun k => ∑ p' : Fin 512,
          lin (fun n s h => ((X n s h : ℝ) : EReal)) (fun h p => ((Wq h p : ℝ) : EReal) * (c : EReal)) (fun p => ((bq p : ℝ) : EReal) * (c : EReal)) n s p'
            * lin (fun n s h => ((X n s h : ℝ) : EReal)) (fun h p => ((Wv h p : ℝ) : EReal)) (fun p => ((bv p : ℝ) : EReal)) n (hi k) p')
        (fun k => lin (fun n s h => ((X n s h : ℝ) : EReal)) (fun h p => ((Wv h p : ℝ) : EReal)) (fun p => ((bv p : ℝ) : EReal)) n (hi k) p)
      = plain
        (fun k => (∑ p' : Fin 512,
          lin (fun n s h => ((X n s h : ℝ) : EReal)) (fun h p => ((Wq h p : ℝ) : EReal)) (fun p => ((bq p : ℝ) : EReal)) n s p'
            * lin (fun n s h => ((X n s h : ℝ) : EReal)) (fun h p => ((Wv h p : ℝ) : EReal)) (fun p => ((bv p : ℝ) : EReal)) n k p') * (c : EReal))
        (fun k => lin (fun n s h => ((X n s h : ℝ) : EReal)) (fun h p => ((Wv h p : ℝ) : EReal)) (fun p => ((bv p : ℝ) : EReal)) n k p) := by
  -- the value rows, the query row and the scores as reals
  have hv : ∀ (k : Fin 4096) (p' : Fin 512),
      lin (fun n s h => ((X n s h : ℝ) : EReal)) (fun h p => ((Wv h p : ℝ) : EReal)) (fun p => ((bv p : ℝ) : EReal)) n k p'
        = (((∑ h : Fin 2048, X n k h * Wv h p') + bv p' : ℝ) : EReal) := fun k p' => lin_real X Wv bv n k p'
  have hq : ∀ p' : Fin 512,
      lin (fun n s h => ((X n s h : ℝ) : EReal)) (fun h p => ((Wq h p : ℝ) : EReal)) (fun p => ((bq p : ℝ) : EReal)) n s p'
        = (((∑ h : Fin 2048, X n s h * Wq h p') + bq p' : ℝ) : EReal) := fun p' => lin_real X Wq bq n s p'
  have hr : ∀ k : Fin 4096,
      (∑ p' : Fin 512,
          lin (fun n s h => ((X n s h : ℝ) : EReal)) (fun h p => ((Wq h p : ℝ) : EReal)) (fun p => ((bq p : ℝ) : EReal)) n s p'
            * lin (fun n s h => ((X n s h : ℝ) : EReal)) (fun h p => ((Wv h p : ℝ) : EReal)) (fun p => ((bv p : ℝ) : EReal)) n k p') * (c : EReal)
        = (((∑ p' : Fin 512, ((∑ h : Fin 2048, X n s h * Wq h p') + bq p') * ((∑ h : Fin 2048, X n k h * Wv h p') + bv p')) * c : ℝ) : EReal) := by
    intro k
    simp only [hv, hq]
    exact score_real (fun p' => (∑ h : Fin 2048, X n s h * Wq h p') + bq p') (fun p' => (∑ h : Fin 2048, X n k h * Wv h p') + bv p') c
  have hs : ∀ k : Fin 4096,
      (∑ p' : Fin 512,
          lin (fun n s h => ((X n s h : ℝ) : EReal)) (fun h p => ((Wq h p : ℝ) : EReal) * (c : EReal)) (fun p => ((bq p : ℝ) : EReal) * (c : EReal)) n s p'
            * lin (fun n s h => ((X n s h : ℝ) : EReal)) (fun h p => ((Wv h p : ℝ) : EReal)) (fun p => ((bv p : ℝ) : EReal)) n k p')
        = (((∑ p' : Fin 512, ((∑ h : Fin 2048, X n s h * Wq h p') + bq p') * ((∑ h : Fin 2048, X n k h * Wv h p') + bv p')) * c : ℝ) : EReal) := by
    intro k
    simp only [hv]
    rw [score_scale X Wq bq (fun p' => (∑ h : Fin 2048, X n k h * Wv h p') + bv p') c n s]
    simp only [hq]
    exact score_real (fun p' => (∑ h : Fin 2048, X n s h * Wq h p') + bq p') (fun p' => (∑ h : Fin 2048, X n k h * Wv h p') + bv p') c
  simp only [hs, hr]
  simp only [hv]
  exact online_eq_plain
    (fun k => (∑ p' : Fin 512, ((∑ h : Fin 2048, X n s h * Wq h p') + bq p') * ((∑ h : Fin 2048, X n k h * Wv h p') + bv p')) * c)
    (fun k => (∑ h : Fin 2048, X n k h * Wv h p) + bv p)

end Cert.Spec

end
-- ==== Proof.Bridge.lean ====
/-
  The two programs' results are one array. Entry (n, s, p) of the kernel's result is the streamed softmax row over
  the arrays the attention launch is entered from, which are the two linear layers (the query one with weights and
  bias pre-scaled); entry (n, s, p) of the reference's result is the plain softmax row over the same layers with
  the score scaled. Under the precondition every argument entry is real, and from real data the two rows agree.
-/
import proofs.«402456_j86346022519567_3_alg».proof.Defs
import proofs.«402456_j86346022519567_3_alg».proof.Proof.Gen.Pre_finite_inputs
import proofs.«402456_j86346022519567_3_alg».proof.Proof.Ideal.AttendArray
import proofs.«402456_j86346022519567_3_alg».proof.Proof.Ideal.ProjectValue
import proofs.«402456_j86346022519567_3_alg».proof.Proof.RefAt
import proofs.«402456_j86346022519567_3_alg».proof.Proof.Finite
import proofs.«402456_j86346022519567_3_alg».proof.Proof.RowBridge

set_option maxRecDepth 16384

noncomputable section

open scoped BigOperators

namespace Cert.Proof.Values

open Idealize.ShloMosaic Idealize.ShloMosaic.TcCoe Idealize.ShloMosaic.ValueIdx Idealize.SL.Sem
open Cert.KernelIdeal.Hand Cert.ReferenceIdeal.AtIndex

/-- Entry by entry, the reference's result is what the kernel's attention launch leaves in the result array. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)))
    (c : Dev Cert.KernelIdeal.nD) (n : Fin 4) (s : Fin 4096) (p : Fin 512) :
    (Cert.ReferenceIdeal.Value.res_main_v22 (F := Ideal) m' c : Cert.ReferenceIdeal.S4x4096x512.Idx → EReal) (ix3 n s p)
      = (W4 m ρ c (Proc.devRef .tc Cert.KernelIdeal.main_v12) : Cert.KernelIdeal.S4x4096x512.Idx → EReal) (ix3 n s p) := by
  -- the kernel's entry: the streamed row over the two linear layers
  have hQ : ∀ (s' : Fin 4096) (p' : Fin 512), qArr (U3 m ρ) c (ix3 n s' p')
      = Spec.lin (aX m c) (fun h p => aWq m c h p * Spec.sc) (fun p => abq m c p * Spec.sc) n s' p' :=
    fun s' p' => q_array m ρ c n s' p'
  have hK : ∀ (k : Fin 4096) (p' : Fin 512), kArr (U3 m ρ) c (ix3 n k p') = Spec.lin (aX m c) (aWv m c) (abv m c) n k p' :=
    fun k p' => v_array m ρ c n k p'
  have hk : (W4 m ρ c (Proc.devRef .tc Cert.KernelIdeal.main_v12) : Cert.KernelIdeal.S4x4096x512.Idx → EReal) (ix3 n s p) = attnAt (U3 m ρ) c n s p := by
    rw [W4_result]; exact out_array (U3 m ρ) c n s p
  -- the reference's entry: the plain row over the same layers, read from its own memory
  have hr : (Cert.ReferenceIdeal.Value.res_main_v22 (F := Ideal) m' c : Cert.ReferenceIdeal.S4x4096x512.Idx → EReal) (ix3 n s p)
      = Spec.plain
          (fun k => (∑ p' : Fin 512, Spec.lin (Cert.ReferenceIdeal.AtIndex.rX m' c) (rWq m' c) (rbq m' c) n s p' * Spec.lin (Cert.ReferenceIdeal.AtIndex.rX m' c) (rWv m' c) (rbv m' c) n k p') * Spec.sc)
          (fun k => Spec.lin (Cert.ReferenceIdeal.AtIndex.rX m' c) (rWv m' c) (rbv m' c) n k p) := result_at m' c n s p
  -- the arguments agree and are real
  obtain ⟨a0, a1, a2, a3, a4⟩ := hagree c
  have rX_eq : Cert.ReferenceIdeal.AtIndex.rX m' c = aX m c := by funext n s h; unfold Cert.ReferenceIdeal.AtIndex.rX aX; rw [a0]
  have rWq_eq : rWq m' c = aWq m c := by funext h p; unfold rWq aWq; rw [a1]
  have rbq_eq : rbq m' c = abq m c := by funext p; unfold rbq abq; rw [a2]
  have rWv_eq : rWv m' c = aWv m c := by funext h p; unfold rWv aWv; rw [a3]
  have rbv_eq : rbv m' c = abv m c := by funext p; unfold rbv abv; rw [a4]
  obtain ⟨h0, h1, h2, h3, h4⟩ := Cert.Pre_finite_inputs.Decode.real_of_pre _ _ _ _ _ (hpre c)
  choose X hX using h0
  choose Wq hWq using h1
  choose bq hbq using h2
  choose Wv hWv using h3
  choose bv hbv using h4
  obtain ⟨c0, hc0⟩ := Spec.sc_real
  have eX : aX m c = fun n s h => (((X (ix3 n s h)) : ℝ) : EReal) := by funext n s h; exact hX _
  have eWq : aWq m c = fun h p => (((Wq (ix2 h p)) : ℝ) : EReal) := by funext h p; exact hWq _
  have ebq : abq m c = fun p => (((bq (ix1 p)) : ℝ) : EReal) := by funext p; exact hbq _
  have eWv : aWv m c = fun h p => (((Wv (ix2 h p)) : ℝ) : EReal) := by funext h p; exact hWv _
  have ebv : abv m c = fun p => (((bv (ix1 p)) : ℝ) : EReal) := by funext p; exact hbv _
  rw [hk, hr, rX_eq, rWq_eq, rbq_eq, rWv_eq, rbv_eq]
  unfold attnAt
  simp only [hQ, hK]
  rw [eX, eWq, ebq, eWv, ebv, hc0]
  exact (Spec.row_bridge (fun n s h => X (ix3 n s h)) (fun h p => Wq (ix2 h p)) (fun h p => Wv (ix2 h p))
    (fun p => bq (ix1 p)) (fun p => bv (ix1 p)) c0 n s p).symm

end Cert.Proof.Values

end
-- ==== Proof.lean ====
/-
  The certificate. A projection launch writes scaled queries and values; an attention launch streams each query band
  over the keys in two halves, carrying a running maximum, denominator and numerator, and writes their quotient. The
  three frames: each program runs to the end, faults nowhere and leaves its five arguments as launched — for the two
  kernel programs from the launches' proof data segment by segment, for the reference from its run. The idealization
  names one literal, the denominator's guard 10⁻³⁰. At the ideal instance the kernel's result array is, entry by
  entry, the reference's: the streamed row is the plain softmax row, the guard is never active because the
  denominator is at least 1, and pre-scaling the query weights is scaling the scores.
-/
import proofs.«402456_j86346022519567_3_alg».proof.Defs
import proofs.«402456_j86346022519567_3_alg».proof.Proof.Gen.Kernel
import proofs.«402456_j86346022519567_3_alg».proof.Proof.Gen.KernelIdeal
import proofs.«402456_j86346022519567_3_alg».proof.Proof.Gen.ReferenceIdeal
import proofs.«402456_j86346022519567_3_alg».proof.Proof.Gen.Pre_finite_inputs
import proofs.«402456_j86346022519567_3_alg».proof.Proof.Gen.ReferenceIdeal.Run
import proofs.«402456_j86346022519567_3_alg».proof.Proof.Bits.Whole
import proofs.«402456_j86346022519567_3_alg».proof.Proof.Ideal.Whole
import proofs.«402456_j86346022519567_3_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the guard's literal stands for 10⁻³⁰. -/
theorem preserves : Cert.preserves_Kernel_KernelIdeal :=
  IdealRules.named_const.statement Cert.KernelIdeal.κ "inv_1000000000000000000000000000000" .f32 0x0DA24260#32
    ((1 / 1000000000000000000000000000000 : ℝ) : EReal) rfl

/-- Both programs run; the kernel's result array is the reference's, entry by entry. -/
theorem algebraic : Cert.algebraic_KernelIdeal_ReferenceIdeal := by
  intro m ρ m' ρ' hpre hagree
  refine ⟨fun c => Cert.KernelIdeal.Hand.W4 m ρ c (Proc.devRef .tc Cert.KernelIdeal.main_v12),
    Cert.KernelIdeal.Hand.run_whole (F := Ideal) m ρ, ?_⟩
  refine (θ_run Cert.ReferenceIdeal.defs _ _).mono (fun _ h c => ⟨(h c).1.trans ?_, (h c).2⟩)
    (Cert.ReferenceIdeal.Value.run (F := Ideal) m' ρ')
  funext j
  obtain ⟨n, s, p, rfl⟩ : ∃ (n : Fin 4) (s : Fin 4096) (p : Fin 512), j = ix3 n s p := ⟨j 0, j 1, j 2, eq_ix3 j⟩
  exact Values.result_eq m ρ m' hpre hagree c n s p

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
